-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x224x224x3 : Shape := ⟨4, ![64, 224, 224, 3]⟩
abbrev S3840 : Shape := ⟨1, ![3840]⟩
abbrev S3840x768 : Shape := ⟨2, ![3840, 768]⟩
abbrev S768 : Shape := ⟨1, ![768]⟩
abbrev S_ : Shape := ⟨0, ![]⟩

class Facts : Prop where
  bcast_S_S64x224x224x3 : S_.BroadcastsInDim S64x224x224x3 (![] : Fin 0 → Fin S64x224x224x3.rank)
  reducesTo_S64x224x224x3_S_d0_1_2_3 : S64x224x224x3.ReducesTo [0, 1, 2, 3] S_
  h_S_ : 0 < S_.numel
  bcast_S_S3840 : S_.BroadcastsInDim S3840 (![] : Fin 0 → Fin S3840.rank)
  reducesTo_S3840_S_d0 : S3840.ReducesTo [0] S_
  bcast_S_S3840x768 : S_.BroadcastsInDim S3840x768 (![] : Fin 0 → Fin S3840x768.rank)
  reducesTo_S3840x768_S_d0_1 : S3840x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S3840x768 1) : IVec S_ 1 :=
  let main_c_5 : IVec S_ 1 := constantI S_ 1 1#1
  let main_v17 : IVec S_ 1 := (fun x v => Host.reduce IntOp.andi x v reducesTo_S3840x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S64x224x224x3 .f32) (main_arg1 : FVec F S3840 .f32) (main_arg2 : FVec F S3840 .f32) (main_arg3 : FVec F S3840x768 .f32) (main_arg4 : FVec F S768 .f32) : IVec S_ 1 :=
  let main_v0 : FVec F S64x224x224x3 .f32 := Host.absf main_arg0
  let main_cst : FVec F S_ .f32 := constant S_ .f32 0x7F800000#32
  let main_v1 : FVec F S64x224x224x3 .f32 := broadcastInDim S64x224x224x3 ![] bcast_S_S64x224x224x3 main_cst
  let main_v2 : IVec S64x224x224x3 1 := cmpf .olt main_v0 main_v1
  let main_c : IVec S_ 1 := constantI S_ 1 1#1
  let main_v3 : IVec S_ 1 := (fun x v => Host.reduce IntOp.andi x v reducesTo_S64x224x224x3_S_d0_1_2_3 h_S_) main_v2 main_c
  let main_v4 : FVec F S3840 .f32 := Host.absf main_arg1
  let main_cst_0 : FVec F S_ .f32 := constant S_ .f32 0x7F800000#32
  let main_v5 : FVec F S3840 .f32 := broadcastInDim S3840 ![] bcast_S_S3840 main_cst_0
  let main_v6 : IVec S3840 1 := cmpf .olt main_v4 main_v5
  let main_c_1 : IVec S_ 1 := constantI S_ 1 1#1
  let main_v7 : IVec S_ 1 := (fun x v => Host.reduce IntOp.andi x v reducesTo_S3840_S_d0 h_S_) main_v6 main_c_1
  let main_v8 : IVec S_ 1 := andi main_v3 main_v7
  let main_v9 : FVec F S3840 .f32 := Host.absf main_arg2
  let main_cst_2 : FVec F S_ .f32 := constant S_ .f32 0x7F800000#32
  let main_v10 : FVec F S3840 .f32 := broadcastInDim S3840 ![] bcast_S_S3840 main_cst_2
  let main_v11 : IVec S3840 1 := cmpf .olt main_v9 main_v10
  let main_c_3 : IVec S_ 1 := constantI S_ 1 1#1
  let main_v12 : IVec S_ 1 := (fun x v => Host.reduce IntOp.andi x v reducesTo_S3840_S_d0 h_S_) main_v11 main_c_3
  let main_v13 : IVec S_ 1 := andi main_v8 main_v12
  let main_v14 : FVec F S3840x768 .f32 := Host.absf main_arg3
  let main_cst_4 : FVec F S_ .f32 := constant S_ .f32 0x7F800000#32
  let main_v15 : FVec F S3840x768 .f32 := broadcastInDim S3840x768 ![] bcast_S_S3840x768 main_cst_4
  let main_v16 : IVec S3840x768 1 := cmpf .olt main_v14 main_v15
  fn_part1 (F := F) main_arg4 main_v13 main_v16
-- ==== Kernel.lean ====
abbrev S64x224x224x3 : Shape := ⟨4, ![64, 224, 224, 3]⟩
abbrev S3840 : Shape := ⟨1, ![3840]⟩
abbrev S3840x768 : Shape := ⟨2, ![3840, 768]⟩
abbrev S768 : Shape := ⟨1, ![768]⟩
abbrev S64x216x216x3 : Shape := ⟨4, ![64, 216, 216, 3]⟩
abbrev S_ : Shape := ⟨0, ![]⟩
abbrev S64x224x224x15 : Shape := ⟨4, ![64, 224, 224, 15]⟩
abbrev S64x14x16x14x16x15 : Shape := ⟨6, ![64, 14, 16, 14, 16, 15]⟩
abbrev S64x14x14x16x16x15 : Shape := ⟨6, ![64, 14, 14, 16, 16, 15]⟩
abbrev S64x14x14x3840 : Shape := ⟨4, ![64, 14, 14, 3840]⟩
abbrev S12544x3840 : Shape := ⟨2, ![12544, 3840]⟩
abbrev S12544x768 : Shape := ⟨2, ![12544, 768]⟩
abbrev S448x3840 : Shape := ⟨2, ![448, 3840]⟩
abbrev S448x768 : Shape := ⟨2, ![448, 768]⟩
abbrev S448 : Shape := ⟨1, ![448]⟩
abbrev S448x1 : Shape := ⟨2, ![448, 1]⟩
abbrev S1x3840 : Shape := ⟨2, ![1, 3840]⟩
abbrev S1x768 : Shape := ⟨2, ![1, 768]⟩
abbrev S64x196x768 : Shape := ⟨3, ![64, 196, 768]⟩

abbrev nBuf : Space → Nat
  | .hbm => 29
  | .vmem => 8
  | .smem => 0
  | _ => 0

abbrev bufTy : (tb : Table) → Fin (tcTables nBuf tb) → BufTy
  | .hbm, ⟨0, _⟩ => ⟨S64x224x224x3, .f32⟩
  | .hbm, ⟨1, _⟩ => ⟨S3840, .f32⟩
  | .hbm, ⟨2, _⟩ => ⟨S3840, .f32⟩
  | .hbm, ⟨3, _⟩ => ⟨S3840x768, .f32⟩
  | .hbm, ⟨4, _⟩ => ⟨S768, .f32⟩
  | .hbm, ⟨5, _⟩ => ⟨S64x216x216x3, .f32⟩
  | .hbm, ⟨6, _⟩ => ⟨S_, .i32⟩
  | .hbm, ⟨7, _⟩ => ⟨S_, .f32⟩
  | .hbm, ⟨8, _⟩ => ⟨S64x224x224x3, .f32⟩
  | .hbm, ⟨9, _⟩ => ⟨S64x216x216x3, .f32⟩
  | .hbm, ⟨10, _⟩ => ⟨S_, .i32⟩
  | .hbm, ⟨11, _⟩ => ⟨S_, .f32⟩
  | .hbm, ⟨12, _⟩ => ⟨S64x224x224x3, .f32⟩
  | .hbm, ⟨13, _⟩ => ⟨S64x216x216x3, .f32⟩
  | .hbm, ⟨14, _⟩ => ⟨S_, .i32⟩
  | .hbm, ⟨15, _⟩ => ⟨S_, .f32⟩
  | .hbm, ⟨16, _⟩ => ⟨S64x224x224x3, .f32⟩
  | .hbm, ⟨17, _⟩ => ⟨S64x216x216x3, .f32⟩
  | .hbm, ⟨18, _⟩ => ⟨S_, .i32⟩
  | .hbm, ⟨19, _⟩ => ⟨S_, .f32⟩
  | .hbm, ⟨20, _⟩ => ⟨S64x224x224x3, .f32⟩
  | .hbm, ⟨21, _⟩ => ⟨S64x224x224x15, .f32⟩
  | .hbm, ⟨22, _⟩ => ⟨S64x14x16x14x16x15, .f32⟩
  | .hbm, ⟨23, _⟩ => ⟨S64x14x14x16x16x15, .f32⟩
  | .hbm, ⟨24, _⟩ => ⟨S64x14x14x3840, .f32⟩
  | .hbm, ⟨25, _⟩ => ⟨S12544x3840, .f32⟩
  | .hbm, ⟨26, _⟩ => ⟨S3840x768, .bf16⟩
  | .hbm, ⟨27, _⟩ => ⟨S12544x768, .f32⟩
  | .hbm, ⟨28, _⟩ => ⟨S64x196x768, .f32⟩
  | .local _ .vmem, ⟨0, _⟩ => ⟨S448x3840, .f32⟩
  | .local _ .vmem, ⟨1, _⟩ => ⟨S448x3840, .f32⟩
  | .local _ .vmem, ⟨2, _⟩ => ⟨S3840, .f32⟩
  | .local _ .vmem, ⟨3, _⟩ => ⟨S3840, .f32⟩
  | .local _ .vmem, ⟨4, _⟩ => ⟨S3840x768, .bf16⟩
  | .local _ .vmem, ⟨5, _⟩ => ⟨S768, .f32⟩
  | .local _ .vmem, ⟨6, _⟩ => ⟨S448x768, .f32⟩
  | .local _ .vmem, ⟨7, _⟩ => ⟨S448x768, .f32⟩
  | _, _ => ⟨S64x224x224x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_call2_v0 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_call3_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S448x3840 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3840 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3840 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3840x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S448x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S64x224x224x3_S64x216x216x3_0_8_8_0 : S64x224x224x3.Slices ![0, 8, 8, 0] S64x216x216x3
  pads_S64x216x216x3_S64x224x224x3_000_080_080_000 : S64x216x216x3.Pads (![0, 0, 0, 0] : Fin 4 → Nat) ![0, 8, 8, 0] ![0, 0, 0, 0] S64x224x224x3
  h_S_ : 0 < S_.numel
  slices_S64x224x224x3_S64x216x216x3_0_0_8_0 : S64x224x224x3.Slices ![0, 0, 8, 0] S64x216x216x3
  pads_S64x216x216x3_S64x224x224x3_000_800_080_000 : S64x216x216x3.Pads (![0, 8, 0, 0] : Fin 4 → Nat) ![0, 0, 8, 0] ![0, 0, 0, 0] S64x224x224x3
  slices_S64x224x224x3_S64x216x216x3_0_8_0_0 : S64x224x224x3.Slices ![0, 8, 0, 0] S64x216x216x3
  pads_S64x216x216x3_S64x224x224x3_000_080_800_000 : S64x216x216x3.Pads (![0, 0, 8, 0] : Fin 4 → Nat) ![0, 8, 0, 0] ![0, 0, 0, 0] S64x224x224x3
  slices_S64x224x224x3_S64x216x216x3_0_0_0_0 : S64x224x224x3.Slices ![0, 0, 0, 0] S64x216x216x3
  pads_S64x216x216x3_S64x224x224x3_000_800_800_000 : S64x216x216x3.Pads (![0, 8, 8, 0] : Fin 4 → Nat) ![0, 0, 0, 0] ![0, 0, 0, 0] S64x224x224x3
  concatenates_S64x224x224x3_S64x224x224x3_S64x224x224x3_S64x224x224x3_S64x224x224x3_S64x224x224x15_d3 : Shape.Concatenates [S64x224x224x3, S64x224x224x3, S64x224x224x3, S64x224x224x3, S64x224x224x3] S64x224x224x15 3
  shapeCasts_S64x224x224x15_S64x14x16x14x16x15 : S64x224x224x15.ShapeCasts S64x14x16x14x16x15
  transposes_S64x14x16x14x16x15_S64x14x14x16x16x15_0_1_3_2_4_5 : S64x14x16x14x16x15.Transposes [0, 1, 3, 2, 4, 5] S64x14x14x16x16x15
  shapeCasts_S64x14x14x16x16x15_S64x14x14x3840 : S64x14x14x16x16x15.ShapeCasts S64x14x14x3840
  shapeCasts_S64x14x14x3840_S12544x3840 : S64x14x14x3840.ShapeCasts S12544x3840
  bitsLt_bf16_f32 : FTy.bits .bf16 < FTy.bits .f32
  inb_S448x3840_S448x3840_0_0 : ∀ a, (![0, 0] : Fin 2 → Nat) a + S448x3840.size a ≤ S448x3840.size a
  h_S448x3840 : 0 < S448x3840.numel
  shapeCasts_S448x3840_S448x3840 : S448x3840.ShapeCasts S448x3840
  reduces_S448x3840_S448 : S448x3840.Reduces [1] S448
  shapeCasts_S448_S448x1 : S448.ShapeCasts S448x1
  broadcasts_S448x1_S448x3840 : S448x1.Broadcasts S448x3840
  inb_S3840_S3840_0 : ∀ a, (![0] : Fin 1 → Nat) a + S3840.size a ≤ S3840.size a
  h_S3840 : 0 < S3840.numel
  shapeCasts_S3840_S1x3840 : S3840.ShapeCasts S1x3840
  broadcasts_S1x3840_S448x3840 : S1x3840.Broadcasts S448x3840
  inb_S3840x768_S3840x768_0_0 : ∀ a, (![0, 0] : Fin 2 → Nat) a + S3840x768.size a ≤ S3840x768.size a
  h_S3840x768 : 0 < S3840x768.numel
  shapeCasts_S3840x768_S3840x768 : S3840x768.ShapeCasts S3840x768
  inb_S768_S768_0 : ∀ a, (![0] : Fin 1 → Nat) a + S768.size a ≤ S768.size a
  h_S768 : 0 < S768.numel
  shapeCasts_S768_S1x768 : S768.ShapeCasts S1x768
  broadcasts_S1x768_S448x768 : S1x768.Broadcasts S448x768
  inb_S448x768_S448x768_0_0 : ∀ a, (![0, 0] : Fin 2 → Nat) a + S448x768.size a ≤ S448x768.size a
  h_S448x768 : 0 < S448x768.numel
  shapeCasts_S12544x768_S64x196x768 : S12544x768.ShapeCasts S64x196x768
  dot_S448x3840_S3840x768_S448x768_1_0_0_1_n_n_wf : DotDims.WF S448x3840 S3840x768 S448x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S448x3840.size a ≤ S12544x3840.size a
  hwx0_0 : ∀ i : grid0.Coords, EltTy.bits .f32 = 32 ∨ (Rect.block (s := S12544x3840) S448x3840.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3840.size a ≤ S3840.size a
  hwx0_1 : ∀ i : grid0.Coords, EltTy.bits .f32 = 32 ∨ (Rect.block (s := S3840) S3840.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3840.size a ≤ S3840.size a
  hwx0_2 : ∀ i : grid0.Coords, EltTy.bits .f32 = 32 ∨ (Rect.block (s := S3840) S3840.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3840x768.size a ≤ S3840x768.size a
  hwx0_3 : ∀ i : grid0.Coords, EltTy.bits .bf16 = 32 ∨ (Rect.block (s := S3840x768) S3840x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768.size a ≤ S768.size a
  hwx0_4 : ∀ i : grid0.Coords, EltTy.bits .f32 = 32 ∨ (Rect.block (s := S768) S768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S448x768.size a ≤ S12544x768.size a
  hwx0_5 : ∀ i : grid0.Coords, EltTy.bits .f32 = 32 ∨ (Rect.block (s := S12544x768) S448x768.size (cc0_transform_5 i) (hinb0_5 i)).WholeWords (EltTy.packing .f32)

variable [Facts₀]

def dot_S448x3840_S3840x768_S448x768_1_0_0_1_n_n : DotDims S448x3840 S3840x768 S448x768 where
  lhsContracting := [1]
  rhsContracting := [0]
  lhsNonContracting := [0]
  rhsNonContracting := [1]
  lhsBatch := []
  rhsBatch := []
  wf := dot_S448x3840_S3840x768_S448x768_1_0_0_1_n_n_wf

abbrev win0_0 : Pipeline.Window sig grid0 :=
  Pipeline.Window.ofSpec (Memref.whole main_v12) S448x3840.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3840.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3840.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S3840x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S448x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x224x224x3 : Shape := ⟨4, ![64, 224, 224, 3]⟩
abbrev S3840 : Shape := ⟨1, ![3840]⟩
abbrev S3840x768 : Shape := ⟨2, ![3840, 768]⟩
abbrev S768 : Shape := ⟨1, ![768]⟩
abbrev S64x216x216x3 : Shape := ⟨4, ![64, 216, 216, 3]⟩
abbrev S_ : Shape := ⟨0, ![]⟩
abbrev S64x224x224x15 : Shape := ⟨4, ![64, 224, 224, 15]⟩
abbrev S64x14x16x14x16x15 : Shape := ⟨6, ![64, 14, 16, 14, 16, 15]⟩
abbrev S64x14x14x16x16x15 : Shape := ⟨6, ![64, 14, 14, 16, 16, 15]⟩
abbrev S64x14x14x3840 : Shape := ⟨4, ![64, 14, 14, 3840]⟩
abbrev S64x196x3840 : Shape := ⟨3, ![64, 196, 3840]⟩
abbrev S64x196 : Shape := ⟨2, ![64, 196]⟩
abbrev S64x196x1 : Shape := ⟨3, ![64, 196, 1]⟩
abbrev S1x1x3840 : Shape := ⟨3, ![1, 1, 3840]⟩
abbrev S64x196x768 : Shape := ⟨3, ![64, 196, 768]⟩
abbrev S1x1x768 : Shape := ⟨3, ![1, 1, 768]⟩

abbrev nBuf : Space → Nat
  | .hbm => 59
  | .vmem => 0
  | .smem => 0
  | _ => 0

abbrev bufTy : (tb : Table) → Fin (tcTables nBuf tb) → BufTy
  | .hbm, ⟨0, _⟩ => ⟨S64x224x224x3, .f32⟩
  | .hbm, ⟨1, _⟩ => ⟨S3840, .f32⟩
  | .hbm, ⟨2, _⟩ => ⟨S3840, .f32⟩
  | .hbm, ⟨3, _⟩ => ⟨S3840x768, .f32⟩
  | .hbm, ⟨4, _⟩ => ⟨S768, .f32⟩
  | .hbm, ⟨5, _⟩ => ⟨S64x216x216x3, .f32⟩
  | .hbm, ⟨6, _⟩ => ⟨S_, .i32⟩
  | .hbm, ⟨7, _⟩ => ⟨S_, .f32⟩
  | .hbm, ⟨8, _⟩ => ⟨S64x224x224x3, .f32⟩
  | .hbm, ⟨9, _⟩ => ⟨S64x216x216x3, .f32⟩
  | .hbm, ⟨10, _⟩ => ⟨S_, .i32⟩
  | .hbm, ⟨11, _⟩ => ⟨S_, .f32⟩
  | .hbm, ⟨12, _⟩ => ⟨S64x224x224x3, .f32⟩
  | .hbm, ⟨13, _⟩ => ⟨S64x216x216x3, .f32⟩
  | .hbm, ⟨14, _⟩ => ⟨S_, .i32⟩
  | .hbm, ⟨15, _⟩ => ⟨S_, .f32⟩
  | .hbm, ⟨16, _⟩ => ⟨S64x224x224x3, .f32⟩
  | .hbm, ⟨17, _⟩ => ⟨S64x216x216x3, .f32⟩
  | .hbm, ⟨18, _⟩ => ⟨S_, .i32⟩
  | .hbm, ⟨19, _⟩ => ⟨S_, .f32⟩
  | .hbm, ⟨20, _⟩ => ⟨S64x224x224x3, .f32⟩
  | .hbm, ⟨21, _⟩ => ⟨S64x224x224x15, .f32⟩
  | .hbm, ⟨22, _⟩ => ⟨S64x14x16x14x16x15, .f32⟩
  | .hbm, ⟨23, _⟩ => ⟨S64x14x14x16x16x15, .f32⟩
  | .hbm, ⟨24, _⟩ => ⟨S64x14x14x3840, .f32⟩
  | .hbm, ⟨25, _⟩ => ⟨S64x196x3840, .f32⟩
  | .hbm, ⟨26, _⟩ => ⟨S_, .f32⟩
  | .hbm, ⟨27, _⟩ => ⟨S64x196, .f32⟩
  | .hbm, ⟨28, _⟩ => ⟨S64x196x1, .f32⟩
  | .hbm, ⟨29, _⟩ => ⟨S_, .f32⟩
  | .hbm, ⟨30, _⟩ => ⟨S64x196x1, .f32⟩
  | .hbm, ⟨31, _⟩ => ⟨S64x196x1, .f32⟩
  | .hbm, ⟨32, _⟩ => ⟨S64x196x3840, .f32⟩
  | .hbm, ⟨33, _⟩ => ⟨S64x196x3840, .f32⟩
  | .hbm, ⟨34, _⟩ => ⟨S64x196x3840, .f32⟩
  | .hbm, ⟨35, _⟩ => ⟨S_, .f32⟩
  | .hbm, ⟨36, _⟩ => ⟨S64x196, .f32⟩
  | .hbm, ⟨37, _⟩ => ⟨S64x196x1, .f32⟩
  | .hbm, ⟨38, _⟩ => ⟨S_, .f32⟩
  | .hbm, ⟨39, _⟩ => ⟨S64x196x1, .f32⟩
  | .hbm, ⟨40, _⟩ => ⟨S64x196x1, .f32⟩
  | .hbm, ⟨41, _⟩ => ⟨S64x196x3840, .f32⟩
  | .hbm, ⟨42, _⟩ => ⟨S64x196x3840, .f32⟩
  | .hbm, ⟨43, _⟩ => ⟨S_, .f32⟩
  | .hbm, ⟨44, _⟩ => ⟨S64x196x1, .f32⟩
  | .hbm, ⟨45, _⟩ => ⟨S64x196x1, .f32⟩
  | .hbm, ⟨46, _⟩ => ⟨S64x196x1, .f32⟩
  | .hbm, ⟨47, _⟩ => ⟨S64x196x3840, .f32⟩
  | .hbm, ⟨48, _⟩ => ⟨S64x196x3840, .f32⟩
  | .hbm, ⟨49, _⟩ => ⟨S1x1x3840, .f32⟩
  | .hbm, ⟨50, _⟩ => ⟨S64x196x3840, .f32⟩
  | .hbm, ⟨51, _⟩ => ⟨S64x196x3840, .f32⟩
  | .hbm, ⟨52, _⟩ => ⟨S1x1x3840, .f32⟩
  | .hbm, ⟨53, _⟩ => ⟨S64x196x3840, .f32⟩
  | .hbm, ⟨54, _⟩ => ⟨S64x196x3840, .f32⟩
  | .hbm, ⟨55, _⟩ => ⟨S64x196x768, .f32⟩
  | .hbm, ⟨56, _⟩ => ⟨S1x1x768, .f32⟩
  | .hbm, ⟨57, _⟩ => ⟨S64x196x768, .f32⟩
  | .hbm, ⟨58, _⟩ => ⟨S64x196x768, .f32⟩
  | _, _ => ⟨S64x224x224x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_call2_v0 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_call3_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]

class Facts₀ : Prop where
  slices_S64x224x224x3_S64x216x216x3_0_8_8_0 : S64x224x224x3.Slices ![0, 8, 8, 0] S64x216x216x3
  pads_S64x216x216x3_S64x224x224x3_000_080_080_000 : S64x216x216x3.Pads (![0, 0, 0, 0] : Fin 4 → Nat) ![0, 8, 8, 0] ![0, 0, 0, 0] S64x224x224x3
  h_S_ : 0 < S_.numel
  slices_S64x224x224x3_S64x216x216x3_0_0_8_0 : S64x224x224x3.Slices ![0, 0, 8, 0] S64x216x216x3
  pads_S64x216x216x3_S64x224x224x3_000_800_080_000 : S64x216x216x3.Pads (![0, 8, 0, 0] : Fin 4 → Nat) ![0, 0, 8, 0] ![0, 0, 0, 0] S64x224x224x3
  slices_S64x224x224x3_S64x216x216x3_0_8_0_0 : S64x224x224x3.Slices ![0, 8, 0, 0] S64x216x216x3
  pads_S64x216x216x3_S64x224x224x3_000_080_800_000 : S64x216x216x3.Pads (![0, 0, 8, 0] : Fin 4 → Nat) ![0, 8, 0, 0] ![0, 0, 0, 0] S64x224x224x3
  slices_S64x224x224x3_S64x216x216x3_0_0_0_0 : S64x224x224x3.Slices ![0, 0, 0, 0] S64x216x216x3
  pads_S64x216x216x3_S64x224x224x3_000_800_800_000 : S64x216x216x3.Pads (![0, 8, 8, 0] : Fin 4 → Nat) ![0, 0, 0, 0] ![0, 0, 0, 0] S64x224x224x3
  concatenates_S64x224x224x3_S64x224x224x3_S64x224x224x3_S64x224x224x3_S64x224x224x3_S64x224x224x15_d3 : Shape.Concatenates [S64x224x224x3, S64x224x224x3, S64x224x224x3, S64x224x224x3, S64x224x224x3] S64x224x224x15 3
  shapeCasts_S64x224x224x15_S64x14x16x14x16x15 : S64x224x224x15.ShapeCasts S64x14x16x14x16x15
  transposes_S64x14x16x14x16x15_S64x14x14x16x16x15_0_1_3_2_4_5 : S64x14x16x14x16x15.Transposes [0, 1, 3, 2, 4, 5] S64x14x14x16x16x15
  shapeCasts_S64x14x14x16x16x15_S64x14x14x3840 : S64x14x14x16x16x15.ShapeCasts S64x14x14x3840
  shapeCasts_S64x14x14x3840_S64x196x3840 : S64x14x14x3840.ShapeCasts S64x196x3840
  reducesTo_S64x196x3840_S64x196_d2 : S64x196x3840.ReducesTo [2] S64x196
  bcast_S64x196_S64x196x1_0_1 : S64x196.BroadcastsInDim S64x196x1 (![0, 1] : Fin 2 → Fin S64x196x1.rank)
  bcast_S_S64x196x1 : S_.BroadcastsInDim S64x196x1 (![] : Fin 0 → Fin S64x196x1.rank)
  bcast_S64x196x1_S64x196x3840_0_1_2 : S64x196x1.BroadcastsInDim S64x196x3840 (![0, 1, 2] : Fin 3 → Fin S64x196x3840.rank)
  bcast_S3840_S1x1x3840_2 : S3840.BroadcastsInDim S1x1x3840 (![2] : Fin 1 → Fin S1x1x3840.rank)
  bcast_S1x1x3840_S64x196x3840_0_1_2 : S1x1x3840.BroadcastsInDim S64x196x3840 (![0, 1, 2] : Fin 3 → Fin S64x196x3840.rank)
  bcast_S768_S1x1x768_2 : S768.BroadcastsInDim S1x1x768 (![2] : Fin 1 → Fin S1x1x768.rank)
  bcast_S1x1x768_S64x196x768_0_1_2 : S1x1x768.BroadcastsInDim S64x196x768 (![0, 1, 2] : Fin 3 → Fin S64x196x768.rank)
  dot_S64x196x3840_S3840x768_S64x196x768_2_0_01_1_n_n_wf : DotDims.WF S64x196x3840 S3840x768 S64x196x768 [2] [0] [0, 1] [1] [] []

variable [Facts₀]

def dot_S64x196x3840_S3840x768_S64x196x768_2_0_01_1_n_n : DotDims S64x196x3840 S3840x768 S64x196x768 where
  lhsContracting := [2]
  rhsContracting := [0]
  lhsNonContracting := [0, 1]
  rhsNonContracting := [1]
  lhsBatch := []
  rhsBatch := []
  wf := dot_S64x196x3840_S3840x768_S64x196x768_2_0_01_1_n_n_wf

class Facts : Prop extends Facts₀ where

variable [Facts]
-- ==== Proof.KernelHost.lean ====
/-
  The host side of `Kernel`'s one pallas_call: the patch-extraction lines of @main before the region (four crops
  padded back to 224x224, the channel concatenation of the image with them, the 16x16 patch re-layout, the flattening to
  12544 rows of 3840, the weight's change of format), the region, and the one reshape after it.  Stated here, at any
  float family `F`: what the TensorCore's buffers hold when the region is entered (`entry`), that no line before or
  after the region writes an argument array, each window's block at a grid point read off the entry contents, and how
  the program's frame — it terminates, nothing faults, the five argument arrays end as launched — follows from a run of
  the region whose proof data start from the entry contents.
-/
import proofs.«142704_j27805618274639_1_alg».proof.Proof.Gen.Kernel.Launch
import proofs.«142704_j27805618274639_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Host

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The lines before and after the region -/

/-- The nine stretches of host lines before the region, in order: each crop and its zero constant, each padding call,
    then the concatenation, the patch re-layout and the weight's cast. -/
abbrev before : List (List (HloOp τ sig (Elt F))) :=
  [hostOps0, hostOps0_1, hostOps0_2, hostOps0_3, hostOps0_4, hostOps0_5, hostOps0_6, hostOps0_7, hostOps0_8]

/-- The one stretch after it: the reshape of the 12544 token rows to 64 images of 196. -/
abbrev after : List (List (HloOp τ sig (Elt F))) := [hostOps1]

/-- Core `c`'s buffer contents when the region is entered: the launch memory after the lines before the region. -/
abbrev entry0 (c : Dev nD) : Valuation τ sig (Elt F) := StableHlo.after (List.flatten (before (F := F))) (fun b => m (c, b))
/-- The same read at a TensorCore reference. -/
abbrev entry (c : Dev nD) (b : Ref sig .tc) : Buf (Elt F) ((c : Thread nD τ).loc b) := entry0 m c (Proc.devRef .tc b)

theorem before_sub : (before (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub⟩

theorem before_fresh : (before (F := F)).Forall fun ops => ops.Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the lines before the region, the region, the lines after it: it reduces to the region continued by the
    reshape. -/
theorem main_around (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main before after before_sub before_fresh main_chain

/-- The reshape after the region touches the pipeline's arrays and the bypassing buffers only. -/
theorem after_sub : ∀ ops ∈ (after : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem after_fresh : ∀ ops ∈ (after : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result only, which is no array of the pipeline. -/
theorem after_keeps : ∀ ops ∈ (after : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-! ## The argument arrays are written by no host line -/

/-- No line before the region writes the reference `b`, when `b` is none of their result buffers. -/
theorem entry_of_arg (c : Dev nD) (b : Ref sig .tc)
    (hb : b ≠ main_v0 ∧ b ≠ main_c ∧ b ≠ main_call0_v0 ∧ b ≠ main_v1 ∧ b ≠ main_v2 ∧ b ≠ main_c_0 ∧ b ≠ main_call1_v0 ∧ b ≠ main_v3
      ∧ b ≠ main_v4 ∧ b ≠ main_c_1 ∧ b ≠ main_call2_v0 ∧ b ≠ main_v5 ∧ b ≠ main_v6 ∧ b ≠ main_c_2 ∧ b ≠ main_call3_v0 ∧ b ≠ main_v7
      ∧ b ≠ main_v8 ∧ b ≠ main_v9 ∧ b ≠ main_v10 ∧ b ≠ main_v11 ∧ b ≠ main_v12 ∧ b ≠ main_v13) :
    entry m c b = m ((c : Thread nD τ).loc b) := by
  obtain ⟨h0, h1, h2, h3, h4, h5, h6, h7, h8, h9, h10, h11, h12, h13, h14, h15, h16, h17, h18, h19, h20, h21⟩ := hb
  refine StableHlo.after_of_forall_not_mem (b := Proc.devRef .tc b) _ _ (List.forall_iff_forall_mem.mp ?_)
  simp only [hostOps0, hostOps0_1, hostOps0_2, hostOps0_3, hostOps0_4, hostOps0_5, hostOps0_6, hostOps0_7, hostOps0_8,
    List.flatten_cons, List.flatten_nil, List.append_nil, List.cons_append,
    List.nil_append, List.Forall, StableHlo.nullary_writes, StableHlo.unary_writes, StableHlo.binary_writes,
    StableHlo.reshape_writes, StableHlo.nary_writes, Finset.mem_singleton]
  repeat' apply And.intro
  all_goals exact StableHlo.devRef_ne_of_ne (by assumption)

theorem entry_arg0 (c : Dev nD) : entry m c main_arg0 = m ((c : Thread nD τ).loc main_arg0) := entry_of_arg m c _ (by decide)
theorem entry_arg1 (c : Dev nD) : entry m c main_arg1 = m ((c : Thread nD τ).loc main_arg1) := entry_of_arg m c _ (by decide)
theorem entry_arg2 (c : Dev nD) : entry m c main_arg2 = m ((c : Thread nD τ).loc main_arg2) := entry_of_arg m c _ (by decide)
theorem entry_arg3 (c : Dev nD) : entry m c main_arg3 = m ((c : Thread nD τ).loc main_arg3) := entry_of_arg m c _ (by decide)
theorem entry_arg4 (c : Dev nD) : entry m c main_arg4 = m ((c : Thread nD τ).loc main_arg4) := entry_of_arg m c _ (by decide)

/-- What a bypassing buffer other than the reshape's result holds at the end: its entry contents. -/
theorem final_of_bypass (dats : (p : Fin _) → (c : Dev nD) → Dat τ (Elt F) Unit ℕ (UR sig nD τ) ℕ (cfgs p) c) (c : Dev nD)
    (b : Ref sig .tc) (hb : b ≠ main_v15) (hw : ∀ w, Pipeline.arrRef spec0 w ≠ b) :
    Pipeline.afterTail₀ cfgs dats 0 (entry0 m) after c b = entry m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne hb)),
    Pipeline.withArrays_of_ne _ c (entry0 m c) _ b hw]

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window's current staging buffer holds its block at every point, fetched there or not (the four windows
    with a constant block index are fetched at the first point only and their index never moves), for any proof data
    whose array is the entry contents and whose body leaves the block in place. -/
theorem staged_rows {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem staged_gamma {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem staged_beta {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem staged_weight {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem staged_bias {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## The frame from a run of the region -/

/-- For any proof data whose arrays are the entry contents, a run to the region's post — every array of the pipeline at
    what the write-backs leave, every other buffer as the reshape leaves it — ends with the five argument arrays as
    launched: the image and the weight bypass the pipeline and no host line writes them; scale, shift and bias are
    input windows, whose arrays the pipeline only reads. -/
theorem frame_of_run (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (Pipeline.afterTail₀ cfgs dats 0 (entry0 m) after))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(((h c).2 main_arg0 (Pipeline.mem_restRefs_of main_arg0 (by decide) (by decide))).trans
        ((final_of_bypass m dats c main_arg0 (by decide) (by decide)).trans (entry_arg0 m c))),
      ((h c).1 1).trans (((dats 0 c).arrAt_in 1 rfl _).trans ((hA c 1).trans (entry_arg1 m c))),
      ((h c).1 2).trans (((dats 0 c).arrAt_in 2 rfl _).trans ((hA c 2).trans (entry_arg2 m c))),
      (((h c).2 main_arg3 (Pipeline.mem_restRefs_of main_arg3 (by decide) (by decide))).trans
        ((final_of_bypass m dats c main_arg3 (by decide) (by decide)).trans (entry_arg3 m c))),
      ((h c).1 4).trans (((dats 0 c).arrAt_in 4 rfl _).trans ((hA c 4).trans (entry_arg4 m c)))⟩) h

end Cert.Kernel.Host

end
-- ==== Proof.KernelRegion.lean ====
/-
  The one pallas_call of `Kernel`: 28 grid points, each normalising 448 rows of 3840 patch entries (mean and
  variance over the row, scale and shift per column) and projecting them through the 3840x768 weight plus bias.  The
  body loads its five input blocks whole, computes, and stores the 448x768 result block whole; it keeps nothing between
  points.  Stated here, at any float family `F`: what the body leaves in the output's staging buffer as a function of the
  five input blocks (`tokensBlock`), the body's triple, the pipeline's proof data over the contents the region finds,
  the run of @main to the region's post, and the frame.
-/
import proofs.«142704_j27805618274639_1_alg».proof.Proof.KernelHost
import proofs.«142704_j27805618274639_1_alg».proof.Proof.Gen.Kernel.Skeleton

set_option maxRecDepth 16384

noncomputable section

namespace Cert.Kernel.Region

open Cert.Kernel Cert.Kernel.Gen Cert.Kernel.Host
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every buffer whole -/

abbrev rowsRect : Rect S448x3840 := Rect.unit (s := S448x3840) ![0, 0] S448x3840.size inb_S448x3840_S448x3840_0_0
abbrev colRect : Rect S3840 := Rect.unit (s := S3840) ![0] S3840.size inb_S3840_S3840_0
abbrev weightRect : Rect S3840x768 := Rect.unit (s := S3840x768) ![0, 0] S3840x768.size inb_S3840x768_S3840x768_0_0
abbrev biasRect : Rect S768 := Rect.unit (s := S768) ![0] S768.size inb_S768_S768_0
abbrev tokensRect : Rect S448x768 := Rect.unit (s := S448x768) ![0, 0] S448x768.size inb_S448x768_S448x768_0_0

/-! ## What the body leaves in the output's staging buffer -/

/-- The output block after the body, from the five input blocks: its one store, of the normalised rows' projection. -/
def tokensBlock (x : Vec F S448x3840 .f32) (g : Vec F S3840 .f32) (sh : Vec F S3840 .f32) (w : Vec F S3840x768 .bf16) (bi : Vec F S768 .f32) :
    Vec F S448x768 .f32 :=
  View.canon [⟨tokensRect, k0_pay1 (View.ld x rowsRect) (View.ld g colRect) (View.ld sh colRect) (View.ld w weightRect) (View.ld bi biasRect)⟩]

/-- The one store is of the whole block, so it covers the buffer. -/
theorem tokens_cover (p0 : Vec F S448x768 .f32) (y : S448x768.Idx) :
    ∃ pc ∈ ([⟨tokensRect, p0⟩] : List (View.Piece (Elt F) S448x768 .f32)), y ∈ pc.1.set :=
  View.cover_of_tiled [⟨tokensRect, p0⟩] S448x768.size (by rfl) y

/-! ## The body's triple -/

set_option maxHeartbeats 1000000 in
/-- The kernel body on whole staging memrefs, the inputs' at contents `x g sh w bi` and the output's at anything, runs to
    the continuation holding the inputs' as they were and the output's at `tokensBlock` of them. -/
theorem body_triple (c : Dev nD) (E : Set ℕ) (i : grid0.Coords)
    (arg1 : Memref sig .tc .vmem S448x3840 .f32) (harg1 : arg1.IsWhole) (arg2 : Memref sig .tc .vmem S3840 .f32) (harg2 : arg2.IsWhole)
    (arg3 : Memref sig .tc .vmem S3840 .f32) (harg3 : arg3.IsWhole) (arg4 : Memref sig .tc .vmem S3840x768 .bf16) (harg4 : arg4.IsWhole)
    (arg5 : Memref sig .tc .vmem S768 .f32) (harg5 : arg5.IsWhole) (arg6 : Memref sig .tc .vmem S448x768 .f32) (harg6 : arg6.IsWhole)
    (x : Vec F S448x3840 .f32) (g : Vec F S3840 .f32) (sh : Vec F S3840 .f32) (w : Vec F S3840x768 .bf16) (bi : Vec F S768 .f32)
    (K : PUnit → sProp 𝕄) :
    iprop(owns (c : Thread nD τ) arg1 fullShare x ∗ owns (c : Thread nD τ) arg2 fullShare g ∗ owns (c : Thread nD τ) arg3 fullShare sh
        ∗ owns (c : Thread nD τ) arg4 fullShare w ∗ owns (c : Thread nD τ) arg5 fullShare bi ∗ (∃ d, owns (c : Thread nD τ) arg6 fullShare d)
        ∗ (iprop(owns (c : Thread nD τ) arg1 fullShare x ∗ owns (c : Thread nD τ) arg2 fullShare g ∗ owns (c : Thread nD τ) arg3 fullShare sh
            ∗ owns (c : Thread nD τ) arg4 fullShare w ∗ owns (c : Thread nD τ) arg5 fullShare bi
            ∗ owns (c : Thread nD τ) arg6 fullShare (tokensBlock x g sh w bi)) -∗ K ⟨⟩))
      ⊢ wp frame (wpE (defs₀ (F := F)) Variants.none c none) E (cc0__ln_dense_kernel i arg1 harg1 arg2 harg2 arg3 harg3 arg4 harg4 arg5 harg5 arg6 harg6) K := by
  simp only [cc0__ln_dense_kernel_eq_skeleton]; unfold cc0__ln_dense_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (tokens_cover _)

/-! ## The pipeline's proof data -/

/-- The proof data of the pipeline on core `c`: the arrays as the region finds them; after the body at point `t` each
    input's buffer at its block and the output's at `tokensBlock` of the input blocks; the invariant the scoped rest
    and the generator register, untouched; nothing owed; full shares. -/
def data (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => tokensBlock (blockAt m c 0 t) (blockAt m c 1 t) (blockAt m c 2 t) (blockAt m c 3 t) (blockAt m c 4 t)
  Φ _ := Pipeline.ΦA spec0 c
  q _ := fullShare
  owed _ := 0

/-- The proof data's arrays are the entry contents. -/
theorem data_A (c : Dev nD) (w : Fin cfg0.W) : (data m 0 c).A w = entry m c (Pipeline.arrRef spec0 w) := by
  dsimp only [data]

/-- What the body leaves, window by window. -/
theorem left_rows (c : Dev nD) (t : Fin cfg0.N) : (data m 0 c).after 0 t = blockAt m c 0 t := by dsimp only [data]
theorem left_gamma (c : Dev nD) (t : Fin cfg0.N) : (data m 0 c).after 1 t = blockAt m c 1 t := by dsimp only [data]
theorem left_beta (c : Dev nD) (t : Fin cfg0.N) : (data m 0 c).after 2 t = blockAt m c 2 t := by dsimp only [data]
theorem left_weight (c : Dev nD) (t : Fin cfg0.N) : (data m 0 c).after 3 t = blockAt m c 3 t := by dsimp only [data]
theorem left_bias (c : Dev nD) (t : Fin cfg0.N) : (data m 0 c).after 4 t = blockAt m c 4 t := by dsimp only [data]
theorem left_tokens (c : Dev nD) (t : Fin cfg0.N) : (data m 0 c).after 5 t
    = tokensBlock (blockAt m c 0 t) (blockAt m c 1 t) (blockAt m c 2 t) (blockAt m c 3 t) (blockAt m c 4 t) := by dsimp only [data]

/-- Each input's current staging buffer holds its block at every point. -/
theorem found_rows (c : Dev nD) (t : Fin cfg0.N) (d) : (data m 0 c).before 0 t d = blockAt m c 0 t :=
  staged_rows m (data m 0 c) (data_A m c 0) (left_rows m c) t d
theorem found_gamma (c : Dev nD) (t : Fin cfg0.N) (d) : (data m 0 c).before 1 t d = blockAt m c 1 t :=
  staged_gamma m (data m 0 c) (data_A m c 1) (left_gamma m c) t d
theorem found_beta (c : Dev nD) (t : Fin cfg0.N) (d) : (data m 0 c).before 2 t d = blockAt m c 2 t :=
  staged_beta m (data m 0 c) (data_A m c 2) (left_beta m c) t d
theorem found_weight (c : Dev nD) (t : Fin cfg0.N) (d) : (data m 0 c).before 3 t d = blockAt m c 3 t :=
  staged_weight m (data m 0 c) (data_A m c 3) (left_weight m c) t d
theorem found_bias (c : Dev nD) (t : Fin cfg0.N) (d) : (data m 0 c).before 4 t d = blockAt m c 4 t :=
  staged_bias m (data m 0 c) (data_A m c 4) (left_bias m c) t d

/-! ## The body obligation, at a generic point -/

/-- What the body is called with at point `t`, the windows one by one, -/
def bodyPre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d)))

/-- and what it returns. -/
def bodyPost (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t)
    ∗ owns (c : Thread nD τ) (st0_5 t) fullShare ((data m 0 c).after 5 t))

/-- The body at any point: the inputs' memrefs hold their blocks, so the body's triple applies; the invariant and the
    core's `owes` pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_rows, found_gamma, found_beta, found_weight, found_bias]
  rw [show (data m 0 c).Φ t.succ = (data m 0 c).Φ t.castSucc from rfl,
    show (data m 0 c).owesAt () t.succ = (data m 0 c).owesAt () t.castSucc from rfl,
    left_rows, left_gamma, left_beta, left_weight, left_bias, left_tokens]
  iintro ⟨HΦ, Ho, ⟨%d0, H0⟩, ⟨%d1, H1⟩, ⟨%d2, H2⟩, ⟨%d3, H3⟩, ⟨%d4, H4⟩, ⟨%d5, H5⟩⟩
  iapply (body_triple c Set.univ (grid0.coords t) _ _ _ _ _ _ _ _ _ _ _ _ (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (data (F := F) m 0 c) (defs₀ (F := F)) Variants.none () Set.univ := fun t => by
  rw [bigSep_W0, bigSep_W0]
  exact body_at m c t

/-! ## The run and the frame -/

set_option backward.isDefEq.respectTransparency.types false in
/-- From any memory with zero counters every weakly fair execution of @main terminates, and every final state has every
    array of the pipeline at what the write-backs leave and every other buffer as the reshape after the region leaves it. -/
theorem run_main : θ_run defs (onTc (τ := τ) (main (F := F))) (s₀ m ρ)
    (Pipeline.FramePost cfgs (data m) 0 (Pipeline.afterTail₀ cfgs (data m) 0 (entry0 m) Host.after)) :=
  Pipeline.θ_run_frame_around cfgs (data m) (0 : Fin 1) launch0 defs₀ Variants.none m ρ main
    (hbody := fun c => (body_obligation m c).loose) (hshare := fun c => (data m 0 c).share_full fun _ => rfl)
    (howed := fun _ _ => rfl) (V₀ := entry0 m) (opss := Host.after) (hsub := after_sub) (hfresh := after_fresh) (hkeep := after_keeps)
    (hmain := main_around m Variants.none) (hA := data_A m) (hΦ := fun _ _ => rfl)

/-- The frame, at any `F`: @main terminates, nothing faults, and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of_run m ρ (data m) (data_A m) (run_main m ρ)

end Cert.Kernel.Region

end
-- ==== Proof.KernelIdealHost.lean ====
/-
  The host side of `KernelIdeal`'s one pallas_call: the patch-extraction lines of @main before the region (four crops
  padded back to 224x224, the channel concatenation of the image with them, the 16x16 patch re-layout, the flattening to
  12544 rows of 3840, the weight's change of format), the region, and the one reshape after it.  Stated here, at any
  float family `F`: what the TensorCore's buffers hold when the region is entered (`entry`), that no line before or
  after the region writes an argument array, each window's block at a grid point read off the entry contents, and how
  the program's frame — it terminates, nothing faults, the five argument arrays end as launched — follows from a run of
  the region whose proof data start from the entry contents.
-/
import proofs.«142704_j27805618274639_1_alg».proof.Proof.Gen.KernelIdeal.Launch
import proofs.«142704_j27805618274639_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Host

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The lines before and after the region -/

/-- The nine stretches of host lines before the region, in order: each crop and its zero constant, each padding call,
    then the concatenation, the patch re-layout and the weight's cast. -/
abbrev before : List (List (HloOp τ sig (Elt F))) :=
  [hostOps0, hostOps0_1, hostOps0_2, hostOps0_3, hostOps0_4, hostOps0_5, hostOps0_6, hostOps0_7, hostOps0_8]

/-- The one stretch after it: the reshape of the 12544 token rows to 64 images of 196. -/
abbrev after : List (List (HloOp τ sig (Elt F))) := [hostOps1]

/-- Core `c`'s buffer contents when the region is entered: the launch memory after the lines before the region. -/
abbrev entry0 (c : Dev nD) : Valuation τ sig (Elt F) := StableHlo.after (List.flatten (before (F := F))) (fun b => m (c, b))
/-- The same read at a TensorCore reference. -/
abbrev entry (c : Dev nD) (b : Ref sig .tc) : Buf (Elt F) ((c : Thread nD τ).loc b) := entry0 m c (Proc.devRef .tc b)

theorem before_sub : (before (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub⟩

theorem before_fresh : (before (F := F)).Forall fun ops => ops.Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the lines before the region, the region, the lines after it: it reduces to the region continued by the
    reshape. -/
theorem main_around (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main before after before_sub before_fresh main_chain

/-- The reshape after the region touches the pipeline's arrays and the bypassing buffers only. -/
theorem after_sub : ∀ ops ∈ (after : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem after_fresh : ∀ ops ∈ (after : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result only, which is no array of the pipeline. -/
theorem after_keeps : ∀ ops ∈ (after : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-! ## The argument arrays are written by no host line -/

/-- No line before the region writes the reference `b`, when `b` is none of their result buffers. -/
theorem entry_of_arg (c : Dev nD) (b : Ref sig .tc)
    (hb : b ≠ main_v0 ∧ b ≠ main_c ∧ b ≠ main_call0_v0 ∧ b ≠ main_v1 ∧ b ≠ main_v2 ∧ b ≠ main_c_0 ∧ b ≠ main_call1_v0 ∧ b ≠ main_v3
      ∧ b ≠ main_v4 ∧ b ≠ main_c_1 ∧ b ≠ main_call2_v0 ∧ b ≠ main_v5 ∧ b ≠ main_v6 ∧ b ≠ main_c_2 ∧ b ≠ main_call3_v0 ∧ b ≠ main_v7
      ∧ b ≠ main_v8 ∧ b ≠ main_v9 ∧ b ≠ main_v10 ∧ b ≠ main_v11 ∧ b ≠ main_v12 ∧ b ≠ main_v13) :
    entry m c b = m ((c : Thread nD τ).loc b) := by
  obtain ⟨h0, h1, h2, h3, h4, h5, h6, h7, h8, h9, h10, h11, h12, h13, h14, h15, h16, h17, h18, h19, h20, h21⟩ := hb
  refine StableHlo.after_of_forall_not_mem (b := Proc.devRef .tc b) _ _ (List.forall_iff_forall_mem.mp ?_)
  simp only [hostOps0, hostOps0_1, hostOps0_2, hostOps0_3, hostOps0_4, hostOps0_5, hostOps0_6, hostOps0_7, hostOps0_8,
    List.flatten_cons, List.flatten_nil, List.append_nil, List.cons_append,
    List.nil_append, List.Forall, StableHlo.nullary_writes, StableHlo.unary_writes, StableHlo.binary_writes,
    StableHlo.reshape_writes, StableHlo.nary_writes, Finset.mem_singleton]
  repeat' apply And.intro
  all_goals exact StableHlo.devRef_ne_of_ne (by assumption)

theorem entry_arg0 (c : Dev nD) : entry m c main_arg0 = m ((c : Thread nD τ).loc main_arg0) := entry_of_arg m c _ (by decide)
theorem entry_arg1 (c : Dev nD) : entry m c main_arg1 = m ((c : Thread nD τ).loc main_arg1) := entry_of_arg m c _ (by decide)
theorem entry_arg2 (c : Dev nD) : entry m c main_arg2 = m ((c : Thread nD τ).loc main_arg2) := entry_of_arg m c _ (by decide)
theorem entry_arg3 (c : Dev nD) : entry m c main_arg3 = m ((c : Thread nD τ).loc main_arg3) := entry_of_arg m c _ (by decide)
theorem entry_arg4 (c : Dev nD) : entry m c main_arg4 = m ((c : Thread nD τ).loc main_arg4) := entry_of_arg m c _ (by decide)

/-- What a bypassing buffer other than the reshape's result holds at the end: its entry contents. -/
theorem final_of_bypass (dats : (p : Fin _) → (c : Dev nD) → Dat τ (Elt F) Unit ℕ (UR sig nD τ) ℕ (cfgs p) c) (c : Dev nD)
    (b : Ref sig .tc) (hb : b ≠ main_v15) (hw : ∀ w, Pipeline.arrRef spec0 w ≠ b) :
    Pipeline.afterTail₀ cfgs dats 0 (entry0 m) after c b = entry m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne hb)),
    Pipeline.withArrays_of_ne _ c (entry0 m c) _ b hw]

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window's current staging buffer holds its block at every point, fetched there or not (the four windows
    with a constant block index are fetched at the first point only and their index never moves), for any proof data
    whose array is the entry contents and whose body leaves the block in place. -/
theorem staged_rows {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem staged_gamma {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem staged_beta {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem staged_weight {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem staged_bias {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## The frame from a run of the region -/

/-- For any proof data whose arrays are the entry contents, a run to the region's post — every array of the pipeline at
    what the write-backs leave, every other buffer as the reshape leaves it — ends with the five argument arrays as
    launched: the image and the weight bypass the pipeline and no host line writes them; scale, shift and bias are
    input windows, whose arrays the pipeline only reads. -/
theorem frame_of_run (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (Pipeline.afterTail₀ cfgs dats 0 (entry0 m) after))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(((h c).2 main_arg0 (Pipeline.mem_restRefs_of main_arg0 (by decide) (by decide))).trans
        ((final_of_bypass m dats c main_arg0 (by decide) (by decide)).trans (entry_arg0 m c))),
      ((h c).1 1).trans (((dats 0 c).arrAt_in 1 rfl _).trans ((hA c 1).trans (entry_arg1 m c))),
      ((h c).1 2).trans (((dats 0 c).arrAt_in 2 rfl _).trans ((hA c 2).trans (entry_arg2 m c))),
      (((h c).2 main_arg3 (Pipeline.mem_restRefs_of main_arg3 (by decide) (by decide))).trans
        ((final_of_bypass m dats c main_arg3 (by decide) (by decide)).trans (entry_arg3 m c))),
      ((h c).1 4).trans (((dats 0 c).arrAt_in 4 rfl _).trans ((hA c 4).trans (entry_arg4 m c)))⟩) h

end Cert.KernelIdeal.Host

end
-- ==== Proof.KernelIdealRegion.lean ====
/-
  The one pallas_call of `KernelIdeal`: 28 grid points, each normalising 448 rows of 3840 patch entries (mean and
  variance over the row, scale and shift per column) and projecting them through the 3840x768 weight plus bias.  The
  body loads its five input blocks whole, computes, and stores the 448x768 result block whole; it keeps nothing between
  points.  Stated here, at any float family `F`: what the body leaves in the output's staging buffer as a function of the
  five input blocks (`tokensBlock`), the body's triple, the pipeline's proof data over the contents the region finds,
  the run of @main to the region's post, and the frame.
-/
import proofs.«142704_j27805618274639_1_alg».proof.Proof.KernelIdealHost
import proofs.«142704_j27805618274639_1_alg».proof.Proof.Gen.KernelIdeal.Skeleton

set_option maxRecDepth 16384

noncomputable section

namespace Cert.KernelIdeal.Region

open Cert.KernelIdeal Cert.KernelIdeal.Gen Cert.KernelIdeal.Host
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every buffer whole -/

abbrev rowsRect : Rect S448x3840 := Rect.unit (s := S448x3840) ![0, 0] S448x3840.size inb_S448x3840_S448x3840_0_0
abbrev colRect : Rect S3840 := Rect.unit (s := S3840) ![0] S3840.size inb_S3840_S3840_0
abbrev weightRect : Rect S3840x768 := Rect.unit (s := S3840x768) ![0, 0] S3840x768.size inb_S3840x768_S3840x768_0_0
abbrev biasRect : Rect S768 := Rect.unit (s := S768) ![0] S768.size inb_S768_S768_0
abbrev tokensRect : Rect S448x768 := Rect.unit (s := S448x768) ![0, 0] S448x768.size inb_S448x768_S448x768_0_0

/-! ## What the body leaves in the output's staging buffer -/

/-- The output block after the body, from the five input blocks: its one store, of the normalised rows' projection. -/
def tokensBlock (x : Vec F S448x3840 .f32) (g : Vec F S3840 .f32) (sh : Vec F S3840 .f32) (w : Vec F S3840x768 .bf16) (bi : Vec F S768 .f32) :
    Vec F S448x768 .f32 :=
  View.canon [⟨tokensRect, k0_pay1 (View.ld x rowsRect) (View.ld g colRect) (View.ld sh colRect) (View.ld w weightRect) (View.ld bi biasRect)⟩]

/-- The one store is of the whole block, so it covers the buffer. -/
theorem tokens_cover (p0 : Vec F S448x768 .f32) (y : S448x768.Idx) :
    ∃ pc ∈ ([⟨tokensRect, p0⟩] : List (View.Piece (Elt F) S448x768 .f32)), y ∈ pc.1.set :=
  View.cover_of_tiled [⟨tokensRect, p0⟩] S448x768.size (by rfl) y

/-! ## The body's triple -/

set_option maxHeartbeats 1000000 in
/-- The kernel body on whole staging memrefs, the inputs' at contents `x g sh w bi` and the output's at anything, runs to
    the continuation holding the inputs' as they were and the output's at `tokensBlock` of them. -/
theorem body_triple (c : Dev nD) (E : Set ℕ) (i : grid0.Coords)
    (arg1 : Memref sig .tc .vmem S448x3840 .f32) (harg1 : arg1.IsWhole) (arg2 : Memref sig .tc .vmem S3840 .f32) (harg2 : arg2.IsWhole)
    (arg3 : Memref sig .tc .vmem S3840 .f32) (harg3 : arg3.IsWhole) (arg4 : Memref sig .tc .vmem S3840x768 .bf16) (harg4 : arg4.IsWhole)
    (arg5 : Memref sig .tc .vmem S768 .f32) (harg5 : arg5.IsWhole) (arg6 : Memref sig .tc .vmem S448x768 .f32) (harg6 : arg6.IsWhole)
    (x : Vec F S448x3840 .f32) (g : Vec F S3840 .f32) (sh : Vec F S3840 .f32) (w : Vec F S3840x768 .bf16) (bi : Vec F S768 .f32)
    (K : PUnit → sProp 𝕄) :
    iprop(owns (c : Thread nD τ) arg1 fullShare x ∗ owns (c : Thread nD τ) arg2 fullShare g ∗ owns (c : Thread nD τ) arg3 fullShare sh
        ∗ owns (c : Thread nD τ) arg4 fullShare w ∗ owns (c : Thread nD τ) arg5 fullShare bi ∗ (∃ d, owns (c : Thread nD τ) arg6 fullShare d)
        ∗ (iprop(owns (c : Thread nD τ) arg1 fullShare x ∗ owns (c : Thread nD τ) arg2 fullShare g ∗ owns (c : Thread nD τ) arg3 fullShare sh
            ∗ owns (c : Thread nD τ) arg4 fullShare w ∗ owns (c : Thread nD τ) arg5 fullShare bi
            ∗ owns (c : Thread nD τ) arg6 fullShare (tokensBlock x g sh w bi)) -∗ K ⟨⟩))
      ⊢ wp frame (wpE (defs₀ (F := F)) Variants.none c none) E (cc0__ln_dense_kernel i arg1 harg1 arg2 harg2 arg3 harg3 arg4 harg4 arg5 harg5 arg6 harg6) K := by
  simp only [cc0__ln_dense_kernel_eq_skeleton]; unfold cc0__ln_dense_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (tokens_cover _)

/-! ## The pipeline's proof data -/

/-- The proof data of the pipeline on core `c`: the arrays as the region finds them; after the body at point `t` each
    input's buffer at its block and the output's at `tokensBlock` of the input blocks; the invariant the scoped rest
    and the generator register, untouched; nothing owed; full shares. -/
def data (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => tokensBlock (blockAt m c 0 t) (blockAt m c 1 t) (blockAt m c 2 t) (blockAt m c 3 t) (blockAt m c 4 t)
  Φ _ := Pipeline.ΦA spec0 c
  q _ := fullShare
  owed _ := 0

/-- The proof data's arrays are the entry contents. -/
theorem data_A (c : Dev nD) (w : Fin cfg0.W) : (data m 0 c).A w = entry m c (Pipeline.arrRef spec0 w) := by
  dsimp only [data]

/-- What the body leaves, window by window. -/
theorem left_rows (c : Dev nD) (t : Fin cfg0.N) : (data m 0 c).after 0 t = blockAt m c 0 t := by dsimp only [data]
theorem left_gamma (c : Dev nD) (t : Fin cfg0.N) : (data m 0 c).after 1 t = blockAt m c 1 t := by dsimp only [data]
theorem left_beta (c : Dev nD) (t : Fin cfg0.N) : (data m 0 c).after 2 t = blockAt m c 2 t := by dsimp only [data]
theorem left_weight (c : Dev nD) (t : Fin cfg0.N) : (data m 0 c).after 3 t = blockAt m c 3 t := by dsimp only [data]
theorem left_bias (c : Dev nD) (t : Fin cfg0.N) : (data m 0 c).after 4 t = blockAt m c 4 t := by dsimp only [data]
theorem left_tokens (c : Dev nD) (t : Fin cfg0.N) : (data m 0 c).after 5 t
    = tokensBlock (blockAt m c 0 t) (blockAt m c 1 t) (blockAt m c 2 t) (blockAt m c 3 t) (blockAt m c 4 t) := by dsimp only [data]

/-- Each input's current staging buffer holds its block at every point. -/
theorem found_rows (c : Dev nD) (t : Fin cfg0.N) (d) : (data m 0 c).before 0 t d = blockAt m c 0 t :=
  staged_rows m (data m 0 c) (data_A m c 0) (left_rows m c) t d
theorem found_gamma (c : Dev nD) (t : Fin cfg0.N) (d) : (data m 0 c).before 1 t d = blockAt m c 1 t :=
  staged_gamma m (data m 0 c) (data_A m c 1) (left_gamma m c) t d
theorem found_beta (c : Dev nD) (t : Fin cfg0.N) (d) : (data m 0 c).before 2 t d = blockAt m c 2 t :=
  staged_beta m (data m 0 c) (data_A m c 2) (left_beta m c) t d
theorem found_weight (c : Dev nD) (t : Fin cfg0.N) (d) : (data m 0 c).before 3 t d = blockAt m c 3 t :=
  staged_weight m (data m 0 c) (data_A m c 3) (left_weight m c) t d
theorem found_bias (c : Dev nD) (t : Fin cfg0.N) (d) : (data m 0 c).before 4 t d = blockAt m c 4 t :=
  staged_bias m (data m 0 c) (data_A m c 4) (left_bias m c) t d

/-! ## The body obligation, at a generic point -/

/-- What the body is called with at point `t`, the windows one by one, -/
def bodyPre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d)))

/-- and what it returns. -/
def bodyPost (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t)
    ∗ owns (c : Thread nD τ) (st0_5 t) fullShare ((data m 0 c).after 5 t))

/-- The body at any point: the inputs' memrefs hold their blocks, so the body's triple applies; the invariant and the
    core's `owes` pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_rows, found_gamma, found_beta, found_weight, found_bias]
  rw [show (data m 0 c).Φ t.succ = (data m 0 c).Φ t.castSucc from rfl,
    show (data m 0 c).owesAt () t.succ = (data m 0 c).owesAt () t.castSucc from rfl,
    left_rows, left_gamma, left_beta, left_weight, left_bias, left_tokens]
  iintro ⟨HΦ, Ho, ⟨%d0, H0⟩, ⟨%d1, H1⟩, ⟨%d2, H2⟩, ⟨%d3, H3⟩, ⟨%d4, H4⟩, ⟨%d5, H5⟩⟩
  iapply (body_triple c Set.univ (grid0.coords t) _ _ _ _ _ _ _ _ _ _ _ _ (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (data (F := F) m 0 c) (defs₀ (F := F)) Variants.none () Set.univ := fun t => by
  rw [bigSep_W0, bigSep_W0]
  exact body_at m c t

/-! ## The run and the frame -/

set_option backward.isDefEq.respectTransparency.types false in
/-- From any memory with zero counters every weakly fair execution of @main terminates, and every final state has every
    array of the pipeline at what the write-backs leave and every other buffer as the reshape after the region leaves it. -/
theorem run_main : θ_run defs (onTc (τ := τ) (main (F := F))) (s₀ m ρ)
    (Pipeline.FramePost cfgs (data m) 0 (Pipeline.afterTail₀ cfgs (data m) 0 (entry0 m) Host.after)) :=
  Pipeline.θ_run_frame_around cfgs (data m) (0 : Fin 1) launch0 defs₀ Variants.none m ρ main
    (hbody := fun c => (body_obligation m c).loose) (hshare := fun c => (data m 0 c).share_full fun _ => rfl)
    (howed := fun _ _ => rfl) (V₀ := entry0 m) (opss := Host.after) (hsub := after_sub) (hfresh := after_fresh) (hkeep := after_keeps)
    (hmain := main_around m Variants.none) (hA := data_A m) (hΦ := fun _ _ => rfl)

/-- The frame, at any `F`: @main terminates, nothing faults, and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of_run m ρ (data m) (data_A m) (run_main m ρ)

end Cert.KernelIdeal.Region

end
-- ==== Proof.LayerNormDense.lean ====
/-
  Layer normalisation of a row followed by a dense projection, as plain functions of extended reals.

  A row `x` of `K` entries is centred at its mean, scaled by the reciprocal square root of its variance plus a small
  constant, multiplied entry by entry by a scale `γ` and shifted by `β`; the normalised row is then multiplied by a
  `K × N` weight and a bias is added.  The mean and the variance divide the row's sum by the float word that both
  programs write for the row length (3840.0), and the small constant is the float word they both write for 1e-6: the
  words are kept as words, since the same word on both sides is never evaluated.  Everything is stated at one row, so it
  reads the same on a block of rows, on the flat `[12544, 3840]` matrix and on the `[64, 196, 3840]` tensor.
-/
import Idealize.ShloMosaic.PureOps.Ideal
import Idealize.ShloMosaic.Lib.ValueIdx

noncomputable section

namespace Cert.LayerNormDense

open Idealize.ShloMosaic

/-- The row length as the float word both programs divide by (3840.0). -/
abbrev lenWord : EReal := Ideal.ofBits .f32 0x45700000#32
/-- The constant added to the variance, as the float word both programs write (1e-6 rounded to f32). -/
abbrev epsWord : EReal := Ideal.ofBits .f32 0x358637BD#32

variable {K N : ℕ}

/-- The row's mean: its sum over the row length. -/
def mean (x : Fin K → EReal) : EReal := Ideal.div (∑ k : Fin K, x k) lenWord

/-- The row centred at its mean. -/
def centred (x : Fin K → EReal) (k : Fin K) : EReal := x k - mean x

/-- The row's variance: the mean of the centred entries' squares. -/
def variance (x : Fin K → EReal) : EReal := Ideal.div (∑ k : Fin K, centred x k * centred x k) lenWord

/-- The reciprocal square root of the variance plus the small constant. -/
def invStd (x : Fin K → EReal) : EReal := Ideal.rsqrt (variance x + epsWord)

/-- The normalised row: centred, scaled by `invStd`, then by `γ`, shifted by `β`. -/
def normed (x γ β : Fin K → EReal) (k : Fin K) : EReal := centred x k * invStd x * γ k + β k

/-- The projected row: the normalised row times the weight's column `q`, plus the bias there. -/
def tokens (x γ β : Fin K → EReal) (w : Fin K → Fin N → EReal) (b : Fin N → EReal) (q : Fin N) : EReal :=
  (∑ k : Fin K, normed x γ β k * w k q) + b q

/-- `tokens` depends on its arguments only through their entries. -/
theorem tokens_congr {x x' γ γ' β β' : Fin K → EReal} {w w' : Fin K → Fin N → EReal} {b b' : Fin N → EReal} {q q' : Fin N}
    (hx : ∀ k, x k = x' k) (hγ : ∀ k, γ k = γ' k) (hβ : ∀ k, β k = β' k) (hw : ∀ k j, w k j = w' k j)
    (hb : ∀ j, b j = b' j) (hq : q = q') : tokens x γ β w b q = tokens x' γ' β' w' b' q' := by
  obtain rfl : x = x' := funext hx
  obtain rfl : γ = γ' := funext hγ
  obtain rfl : β = β' := funext hβ
  obtain rfl : w = w' := funext fun k => funext (hw k)
  obtain rfl : b = b' := funext hb
  subst hq
  rfl

end Cert.LayerNormDense

end
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.LibDenseLayer.lean ====
/-
  The dense half of a graph-convolution layer, as plain functions of matrices of extended reals.

  A layer multiplies an `[a, K]` matrix `x` by a `[K, N]` matrix `w` and then either clamps every entry at zero from
  below (`reluLayer`) or normalises every row by the softmax (`softmaxLayer`): the row's entries minus the row's
  maximum, exponentiated, divided by the row's sum of those exponentials. Everything is stated entry by entry, at
  the row `r` and the column `q`, so that it reads the same on a block of rows and on the whole matrix: entry
  `(r, q)` of either layer depends on `x` only through row `r` (`prodRow_congr`).

  Then each operation a vector program or a host program spells these layers with, read at an index at the ideal
  values: a matrix product into a zero accumulator and a `dot_general` as `prodRow` (for dimension numbers that
  contract the second axis of the left operand with the first of the right: `PlainDot`), a row maximum taken by a
  vector reduction or by a host reduction as the fold of `max` over the row, a host row sum as the initial value plus
  the sum over the row; and a vector program's whole row softmax (`vector_softmax_apply`), its column of row maxima and
  its column of row sums laid over the columns by a shape cast and a broadcast.

  All are generic in the extents.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«142704_j27805618274639_1_alg».proof.Proof.LibColumnLayout

noncomputable section

namespace Cert.DenseLayer

open Idealize.ShloMosaic Idealize.ShloMosaic.ValueIdx

/-- A `[p, q]` matrix of extended reals, indexed as the arrays are. -/
abbrev Mat (p q : ℕ) : Type := (⟨2, ![p, q]⟩ : Shape).Idx → EReal

variable {a K N : ℕ}

/-! ## The layers -/

/-- Row `r` of the product `x · w`: in column `q` the sum over `k` of `x (r, k) · w (k, q)`. -/
def prodRow (x : Mat a K) (w : Mat K N) (r : Fin a) : Fin N → EReal :=
  fun q => ∑ k : Fin K, x (ix2 r k) * w (ix2 k q)

/-- A row of the product depends on the left matrix only through that row: two left matrices, of any heights,
    that agree along a row of each give the same row of products. -/
theorem prodRow_congr {a' : ℕ} (x : Mat a K) (x' : Mat a' K) (w : Mat K N) (r : Fin a) (r' : Fin a')
    (h : ∀ k, x (ix2 r k) = x' (ix2 r' k)) : prodRow x w r = prodRow x' w r' :=
  funext fun q => Finset.sum_congr rfl fun k _ => by rw [h k]

/-- The product clamped at zero from below, entry by entry (the zero written as the word a program writes). -/
def reluLayer (x : Mat a K) (w : Mat K N) : Mat a N :=
  fun i => max (prodRow x w (i 0) (i 1)) (Ideal.ofBits .f32 0x00000000#32)

/-- The maximum of a row, taken from `-∞` (the word a program writes) and once more against `-∞`. -/
def rowTop (z : Fin N → EReal) : EReal :=
  max (Ideal.ofBits .f32 0xFF800000#32) (Finset.univ.fold max (Ideal.ofBits .f32 0xFF800000#32) z)

/-- The softmax of a row at column `q`: `exp (z q - top)` over the sum of `exp (z j - top)` along the row. -/
def softmaxRow (z : Fin N → EReal) (q : Fin N) : EReal :=
  Ideal.div (Ideal.exp (z q - rowTop z)) (∑ j : Fin N, Ideal.exp (z j - rowTop z))

/-- The product with every row normalised by the softmax. -/
def softmaxLayer (x : Mat a K) (w : Mat K N) : Mat a N :=
  fun i => softmaxRow (prodRow x w (i 0)) (i 1)

theorem reluLayer_apply (x : Mat a K) (w : Mat K N) (r : Fin a) (q : Fin N) :
    reluLayer x w (ix2 r q) = max (prodRow x w r q) (Ideal.ofBits .f32 0x00000000#32) := rfl

theorem softmaxLayer_apply (x : Mat a K) (w : Mat K N) (r : Fin a) (q : Fin N) :
    softmaxLayer x w (ix2 r q) = softmaxRow (prodRow x w r) q := rfl

/-! ## A matrix product read at an index -/

/-- Dimension numbers of a plain product `[a, K] × [K, N] → [a, N]`: one contracted axis of extent `K`, the left
    operand read at `(row, k)` and the right at `(k, column)`. -/
structure PlainDot (d : DotDims ⟨2, ![a, K]⟩ ⟨2, ![K, N]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (q ⟨0, by omega⟩).val
  rhs1 : ∀ (i : (⟨2, ![a, N]⟩ : Shape).Idx) (q : d.contr.Idx), (d.rhsIdx i q 1).val = (i 1).val

/-- The contraction's sum over its own index type is the sum over `k : Fin K` of the row times the column. -/
theorem sum_contr_eq_prodRow {d : DotDims ⟨2, ![a, K]⟩ ⟨2, ![K, N]⟩ ⟨2, ![a, N]⟩} (hd : PlainDot d)
    (x : Mat a K) (w : Mat K N) (i : (⟨2, ![a, N]⟩ : Shape).Idx) :
    ∑ k : d.contr.Idx, x (d.lhsIdx i k) * w (d.rhsIdx i k) = prodRow x w (i 0) (i 1) := by
  unfold prodRow
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 k (i 1) := funext fun ax => Fin.ext (by
    match ax with
    | ⟨0, _⟩ => exact (hd.rhs0 _ _).trans hk
    | ⟨1, _⟩ => exact hd.rhs1 _ _)
  rw [el, er]
  rfl

/-- A vector program's matrix product into the zero accumulator, at the ideal values, is `prodRow` entry by entry,
    whatever the operands' float formats. -/
theorem matmul_zero_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (i : (⟨2, ![a, N]⟩ : Shape).Idx) :
    FloatOps.matmul d prec x w (constant ⟨2, ![a, N]⟩ .f32 0x00000000#32) i = prodRow x w (i 0) (i 1) :=
  (Ideal.matmul_constant_zero_apply d prec x w i).trans (sum_contr_eq_prodRow hd x w i)

/-- A host program's `dot_general`, at the ideal values, is `prodRow` entry by entry. -/
theorem dotGeneral_apply {φ₁ φ₂ : FTy} {d : DotDims ⟨2, ![a, K]⟩ ⟨2, ![K, N]⟩ ⟨2, ![a, N]⟩} (hd : PlainDot d)
    (prec : Option ContractPrecision) (sched : HostSchedule) (x : FVec Ideal ⟨2, ![a, K]⟩ φ₁)
    (w : FVec Ideal ⟨2, ![K, N]⟩ φ₂) (i : (⟨2, ![a, N]⟩ : Shape).Idx) :
    FloatOps.dotGeneral d prec sched x w i = prodRow x w (i 0) (i 1) :=
  (Ideal.dotGeneral_apply d prec sched x w i).trans (sum_contr_eq_prodRow hd x w i)

/-! ## A row's maximum and a row's sum read at an index -/

/-- Inserting the coordinate `k` on the second axis over the row index `p` gives `(p, k)`. -/
theorem lift_rows {b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- A vector program's maximum over the second axis of `[a, b]`, at row `p` at the ideal values: the fold of `max`
    from the accumulator's value over the row's `b` entries. -/
theorem multiReduction_max_rows_apply {b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (lift_rows h p k)))

/-- A host program's maximum over the second axis of `[a, b]`, at row `p` at the ideal values: the fold of `max`
    from the initial value over the row's `b` entries. -/
theorem hostReduce_max_rows_apply {b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f : Fin b → EReal => (Finset.univ : Finset (Fin b)).fold max (init (Shape.Idx.first hu)) f)
      (funext fun k => congrArg x (lift_rows h p k)))

/-! ## A vector program's row softmax read at an index -/

section VectorSoftmax

variable {b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima of `z` as a vector program takes them — the reduction from `-∞`, once more against a splat of
    `-∞` — set as a column and laid over the `b` columns. -/
def vecTop : FVec Ideal ⟨2, ![a, b]⟩ .f32 :=
  broadcastTo ⟨2, ![a, b]⟩
    (shapeCast ⟨2, ![a, 1]⟩
      (maximumf (broadcast ⟨1, ![a]⟩ (Scalar.ofBits (F := Ideal) .f32 0xFF800000#32))
        (multiReduction .maximumf [1] ⟨1, ![a]⟩ z 0xFF800000#32 hr hφ hmax)) hc) hb

/-- At `(p, q)` it is the maximum of row `p`, whatever the column. -/
theorem vecTop_apply (p : Fin a) (q : Fin b) :
    vecTop z hr hc hb hφ hmax (ix2 p q) = rowTop (fun k => z (ix2 p k)) :=
  (Cert.ColumnLayout.column_over_columns_apply _ hc hb p q).trans
    (congrArg (max (Ideal.ofBits .f32 0xFF800000#32)) (multiReduction_max_rows_apply z _ hr hφ hmax p))

/-- The whole row softmax of a vector program — the entries minus the laid-out row maxima, exponentiated, divided by
    their row sums laid out the same way — is `softmaxRow` of the row, entry by entry. -/
theorem vector_softmax_apply (p : Fin a) (q : Fin b) :
    divf (exp (subf z (vecTop z hr hc hb hφ hmax)))
        (broadcastTo ⟨2, ![a, b]⟩
          (shapeCast ⟨2, ![a, 1]⟩
            (multiReduction .add [1] ⟨1, ![a]⟩ (exp (subf z (vecTop z hr hc hb hφ hmax))) 0x00000000#32 hr hφ hadd) hc) hb)
        (ix2 p q)
      = softmaxRow (fun k => z (ix2 p k)) q := by
  have hE : ∀ k : Fin b, exp (subf z (vecTop z hr hc hb hφ hmax)) (ix2 p k)
      = Ideal.exp (z (ix2 p k) - rowTop (fun k => z (ix2 p k))) := fun k => by
    show Ideal.exp (z (ix2 p k) - vecTop z hr hc hb hφ hmax (ix2 p k)) = _
    rw [vecTop_apply]
  show Ideal.div (exp (subf z (vecTop z hr hc hb hφ hmax)) (ix2 p q)) _ = _
  rw [hE q, Cert.ColumnLayout.column_over_columns_apply, Cert.ColumnLayout.multiReduction_add_rows_apply]
  unfold softmaxRow
  exact congrArg (Ideal.div _) (Finset.sum_congr rfl fun k _ => hE k)

end VectorSoftmax

end Cert.DenseLayer

end
-- ==== Proof.LibBiasLayer.lean ====
/-
  A dense layer with a bias row, as plain functions of matrices of extended reals, and each way a program spells it.

  `affine x w b` is the `[a, N]` matrix whose entry `(r, q)` is the row product `∑ₖ x (r, k) · w (k, q)` plus the
  bias `b q`; `reluAffine x w b` clamps every entry of it at zero from below. Both are stated entry by entry, so
  they read the same on a block of rows and on the whole matrix: entry `(r, q)` depends on `x` only through its
  row `r` (`affine_congr`, `reluAffine_congr`).

  A vector program lays the bias `[N]` out as a row `[1, N]` by a shape cast and over the `a` rows by a
  broadcast; a host program does both steps by `broadcast_in_dim`. Either way the laid-out bias read at `(r, q)`
  is `b q` (`row_over_rows_apply`, `host_row_over_rows_apply`). With the matrix product into a zero accumulator,
  respectively the `dot_general`, read as the row product, the whole layer read at `(r, q)` at the ideal values is
  `affine` (`vector_affine_apply`, `host_affine_apply`), and followed by the maximum against a splat of zero it is
  `reluAffine` (`vector_reluAffine_apply`, `host_reluAffine_apply`).

  All are generic in the extents.
-/
import Idealize.ShloMosaic.Lib.Pipeline.Value
import Idealize.ShloMosaic.Lib.ValueIdx
import Idealize.ShloMosaic.Lib.ValueLayout
import Idealize.ShloMosaic.PureOps.Ideal.Laws
import proofs.«142704_j27805618274639_1_alg».proof.Proof.LibDenseLayer

noncomputable section

namespace Cert.BiasLayer

open Idealize.ShloMosaic Idealize.ShloMosaic.ValueIdx Cert.DenseLayer

/-- A vector of `n` extended reals, indexed as the arrays are. -/
abbrev Row (n : ℕ) : Type := (⟨1, ![n]⟩ : Shape).Idx → EReal

variable {a K N : ℕ}

/-! ## The layer -/

/-- `x · w + b`, entry by entry: at `(r, q)` the row product of row `r` with column `q`, plus `b q`. -/
def affine (x : Mat a K) (w : Mat K N) (b : Row N) : Mat a N :=
  fun i => prodRow x w (i 0) (i 1) + b (ix1 (i 1))

/-- `x · w + b` clamped at zero from below, entry by entry (the zero written as the word a program writes). -/
def reluAffine (x : Mat a K) (w : Mat K N) (b : Row N) : Mat a N :=
  fun i => max (affine x w b i) (Ideal.ofBits .f32 0x00000000#32)

theorem affine_apply (x : Mat a K) (w : Mat K N) (b : Row N) (r : Fin a) (q : Fin N) :
    affine x w b (ix2 r q) = prodRow x w r q + b (ix1 q) := rfl

theorem reluAffine_apply (x : Mat a K) (w : Mat K N) (b : Row N) (r : Fin a) (q : Fin N) :
    reluAffine x w b (ix2 r q) = max (affine x w b (ix2 r q)) (Ideal.ofBits .f32 0x00000000#32) := rfl

/-- An entry of the layer depends on the left matrix only through the entry's row. -/
theorem affine_congr {a' : ℕ} (x : Mat a K) (x' : Mat a' K) (w : Mat K N) (b : Row N) (r : Fin a) (r' : Fin a')
    (h : ∀ k, x (ix2 r k) = x' (ix2 r' k)) (q : Fin N) : affine x w b (ix2 r q) = affine x' w b (ix2 r' q) := by
  rw [affine_apply, affine_apply, prodRow_congr x x' w r r' h]

/-- The same for the clamped layer. -/
theorem reluAffine_congr {a' : ℕ} (x : Mat a K) (x' : Mat a' K) (w : Mat K N) (b : Row N) (r : Fin a) (r' : Fin a')
    (h : ∀ k, x (ix2 r k) = x' (ix2 r' k)) (q : Fin N) :
    reluAffine x w b (ix2 r q) = reluAffine x' w b (ix2 r' q) := by
  rw [reluAffine_apply, reluAffine_apply, affine_congr x x' w b r r' h q]

/-! ## The bias laid over the rows -/

variable {α : Type}

/-- A vector `[N]` cast to the row `[1, N]` reads, at `(u, q)`, the vector at `q`, whatever the unit coordinate. -/
theorem shapeCast_n_1n_apply (v : (⟨1, ![N]⟩ : Shape).Idx → α) (h : (⟨1, ![N]⟩ : Shape).ShapeCasts ⟨2, ![1, N]⟩)
    (u : Fin 1) (q : Fin N) : shapeCast ⟨2, ![1, N]⟩ v h (ix2 u q) = v (ix1 q) :=
  shapeCast_apply v h _ _ (by
    have hu : u.val = 0 := by omega
    rw [Shape.rowMajor_val_two, Shape.rowMajor_val_one]
    show q.val = u.val * N + q.val
    rw [hu, Nat.zero_mul, Nat.zero_add])

/-- A vector program's bias: the vector as a row, broadcast over `a` rows, is `v q` at `(r, q)`. -/
theorem row_over_rows_apply (v : (⟨1, ![N]⟩ : Shape).Idx → α) (hc : (⟨1, ![N]⟩ : Shape).ShapeCasts ⟨2, ![1, N]⟩)
    (hb : (⟨2, ![1, N]⟩ : Shape).Broadcasts ⟨2, ![a, N]⟩) (r : Fin a) (q : Fin N) :
    broadcastTo ⟨2, ![a, N]⟩ (shapeCast ⟨2, ![1, N]⟩ v hc) hb (ix2 r q) = v (ix1 q) :=
  (broadcastTo_1b_ab_apply _ hb r q).trans (shapeCast_n_1n_apply v hc 0 q)

/-- A host program's bias: the vector broadcast into the row `[1, N]` along its second axis, then over `a` rows,
    is `v q` at `(r, q)`. -/
theorem host_row_over_rows_apply (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![a, N]⟩ ![0, 1]) (r : Fin a) (q : Fin N) :
    broadcastInDim ⟨2, ![a, N]⟩ ![0, 1] h2 (broadcastInDim ⟨2, ![1, N]⟩ ![1] h1 v) (ix2 r q) = v (ix1 q) := by
  have hq : q.val = if N = 1 then 0 else q.val := by
    split
    · have := q.isLt; omega
    · rfl
  refine (broadcastInDim_apply _ h2 _ (ix2 r q) (ix2 (0 : Fin 1) q) fun ax => ?_).trans
    (broadcastInDim_apply _ h1 v (ix2 (0 : Fin 1) q) (ix1 q) fun ax => ?_)
  · match ax with
    | ⟨0, _⟩ => rfl
    | ⟨1, _⟩ => exact hq
  · match ax with
    | ⟨0, _⟩ => exact hq

/-- A host program's splat of a scalar constant reads that constant everywhere. -/
theorem host_splat_apply {s : Shape} (c : (⟨0, ![]⟩ : Shape).Idx → α) (h : (⟨0, ![]⟩ : Shape).BroadcastsInDim s ![])
    (i : s.Idx) : broadcastInDim s ![] h c i = c ix0 :=
  broadcastInDim_apply _ h c i ix0 fun ax => ax.elim0

/-! ## The layer as a vector program and as a host program spell it -/

section Spellings

variable {φ₁ φ₂ : FTy} {d : DotDims ⟨2, ![a, K]⟩ ⟨2, ![K, N]⟩ ⟨2, ![a, N]⟩}
  (x : FVec Ideal ⟨2, ![a, K]⟩ φ₁) (w : FVec Ideal ⟨2, ![K, N]⟩ φ₂) (b : FVec Ideal ⟨1, ![N]⟩ .f32)

/-- A vector program's product into the zero accumulator plus the laid-out bias is `affine`, entry by entry. -/
theorem vector_affine_apply (hd : PlainDot d) (prec : Option ContractPrecision) (hc : (⟨1, ![N]⟩ : Shape).ShapeCasts ⟨2, ![1, N]⟩)
    (hb : (⟨2, ![1, N]⟩ : Shape).Broadcasts ⟨2, ![a, N]⟩) (r : Fin a) (q : Fin N) :
    addf (matmul d prec x w (constant ⟨2, ![a, N]⟩ .f32 0x00000000#32))
        (broadcastTo ⟨2, ![a, N]⟩ (shapeCast ⟨2, ![1, N]⟩ b hc) hb) (ix2 r q)
      = affine x w b (ix2 r q) := by
  show FloatOps.matmul d prec x w (constant ⟨2, ![a, N]⟩ .f32 0x00000000#32) (ix2 r q)
      + broadcastTo ⟨2, ![a, N]⟩ (shapeCast ⟨2, ![1, N]⟩ b hc) hb (ix2 r q) = _
  rw [matmul_zero_apply hd, row_over_rows_apply]
  rfl

/-- Followed by the maximum against a splat of the zero word it is `reluAffine`. -/
theorem vector_reluAffine_apply (hd : PlainDot d) (prec : Option ContractPrecision) (hc : (⟨1, ![N]⟩ : Shape).ShapeCasts ⟨2, ![1, N]⟩)
    (hb : (⟨2, ![1, N]⟩ : Shape).Broadcasts ⟨2, ![a, N]⟩) (r : Fin a) (q : Fin N) :
    maximumf (addf (matmul d prec x w (constant ⟨2, ![a, N]⟩ .f32 0x00000000#32))
        (broadcastTo ⟨2, ![a, N]⟩ (shapeCast ⟨2, ![1, N]⟩ b hc) hb))
        (broadcast ⟨2, ![a, N]⟩ (Scalar.ofBits (F := Ideal) .f32 0x00000000#32)) (ix2 r q)
      = reluAffine x w b (ix2 r q) := by
  show max (addf (matmul d prec x w (constant ⟨2, ![a, N]⟩ .f32 0x00000000#32))
        (broadcastTo ⟨2, ![a, N]⟩ (shapeCast ⟨2, ![1, N]⟩ b hc) hb) (ix2 r q)) (Ideal.ofBits .f32 0x00000000#32) = _
  rw [vector_affine_apply x w b hd prec hc hb r q]
  rfl

/-- A host program's `dot_general` plus the laid-out bias is `affine`, entry by entry. -/
theorem host_affine_apply (hd : PlainDot d) (prec : Option ContractPrecision)
    (h1 : (⟨1, ![N]⟩ : Shape).BroadcastsInDim ⟨2, ![1, N]⟩ ![1])
    (h2 : (⟨2, ![1, N]⟩ : Shape).BroadcastsInDim ⟨2, ![a, N]⟩ ![0, 1]) (r : Fin a) (q : Fin N) :
    addf (Host.dotGeneral d prec x w)
        (broadcastInDim ⟨2, ![a, N]⟩ ![0, 1] h2 (broadcastInDim ⟨2, ![1, N]⟩ ![1] h1 b)) (ix2 r q)
      = affine x w b (ix2 r q) := by
  show FloatOps.dotGeneral d prec .single x w (ix2 r q)
      + broadcastInDim ⟨2, ![a, N]⟩ ![0, 1] h2 (broadcastInDim ⟨2, ![1, N]⟩ ![1] h1 b) (ix2 r q) = _
  rw [dotGeneral_apply hd, host_row_over_rows_apply]
  rfl

/-- Followed by the maximum against a host splat of the zero word it is `reluAffine`. -/
theorem host_reluAffine_apply (hd : PlainDot d) (prec : Option ContractPrecision)
    (h1 : (⟨1, ![N]⟩ : Shape).BroadcastsInDim ⟨2, ![1, N]⟩ ![1])
    (h2 : (⟨2, ![1, N]⟩ : Shape).BroadcastsInDim ⟨2, ![a, N]⟩ ![0, 1])
    (h0 : (⟨0, ![]⟩ : Shape).BroadcastsInDim ⟨2, ![a, N]⟩ ![]) (r : Fin a) (q : Fin N) :
    maximumf (addf (Host.dotGeneral d prec x w)
        (broadcastInDim ⟨2, ![a, N]⟩ ![0, 1] h2 (broadcastInDim ⟨2, ![1, N]⟩ ![1] h1 b)))
        (broadcastInDim ⟨2, ![a, N]⟩ ![] h0 (constant (F := Ideal) ⟨0, ![]⟩ .f32 0x00000000#32)) (ix2 r q)
      = reluAffine x w b (ix2 r q) := by
  show max (addf (Host.dotGeneral d prec x w)
        (broadcastInDim ⟨2, ![a, N]⟩ ![0, 1] h2 (broadcastInDim ⟨2, ![1, N]⟩ ![1] h1 b)) (ix2 r q))
      (broadcastInDim ⟨2, ![a, N]⟩ ![] h0 (constant (F := Ideal) ⟨0, ![]⟩ .f32 0x00000000#32) (ix2 r q)) = _
  rw [host_affine_apply x w b hd prec h1 h2 r q, host_splat_apply]
  rfl

end Spellings

end Cert.BiasLayer

end
-- ==== Proof.LibPlainDot.lean ====
/-
  Dimension numbers of a plain matrix product, recognised from their axis lists.

  A contraction's dimension numbers name, for each operand, which axes are batch axes, which are carried to the
  result and which are summed over. For a product `[a, K] × [K, N] → [a, N]` with no batch axis, the left operand's
  second axis summed against the right operand's first, and the two remaining axes carried in order, the left operand
  is read at `(row, k)` and the right at `(k, column)`: the record is a `PlainDot`, so that the product at an index is
  the row-times-column sum `prodRow`. The lemma is generic in the extents and takes the six axis lists as equations,
  which hold by `rfl` of any record written with those lists.
-/
import Idealize.ShloMosaic.PureOps.Dims
import proofs.«142704_j27805618274639_1_alg».proof.Proof.LibDenseLayer

noncomputable section

namespace Cert.DenseLayer

open Idealize.ShloMosaic Idealize.ShloMosaic.ValueIdx

variable {a K N : ℕ}

/-- Two positions of one index that are equal as numbers hold the same coordinate. -/
theorem coord_val_congr {s : Shape} (i : s.Idx) (p q : ℕ) (hp : p < s.rank) (hq : q < s.rank) (h : p = q) :
    (i ⟨p, hp⟩).val = (i ⟨q, hq⟩).val := by subst h; rfl

/-- Dimension numbers with no batch axis that sum the left operand's axis 1 against the right operand's axis 0 and
    carry the left operand's axis 0 and then the right operand's axis 1 are those of a plain product. -/
theorem plainDot_of_axes (d : DotDims ⟨2, ![a, K]⟩ ⟨2, ![K, N]⟩ ⟨2, ![a, N]⟩)
    (hlc : d.lhsContracting = [1]) (hrc : d.rhsContracting = [0])
    (hln : d.lhsNonContracting = [0]) (hrn : d.rhsNonContracting = [1])
    (hlb : d.lhsBatch = []) (hrb : d.rhsBatch = []) : PlainDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => d.rhsIdx_val_of_single hrc i q
  rhs1 := fun i q => by
    have hb : (1 : Fin (⟨2, ![K, N]⟩ : Shape).rank) ∉ d.rhsBatch := by rw [hrb]; exact List.not_mem_nil
    have hn : (1 : Fin (⟨2, ![K, N]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])

end Cert.DenseLayer

end
-- ==== Proof.KernelIdealPayload.lean ====
/-
  The kernel body's arithmetic at the ideal values, read entry by entry: the stored block's entry `(p, q)` is the
  layer-normalised row `p` of the 448 x 3840 input block, projected through column `q` of the weight block, plus the
  bias at `q`.  The row sums are lane reductions set as columns and laid back over the 3840 columns; scale, shift and
  bias are vectors set as rows and laid over the 448 rows; the product accumulates into a zero block; the change of
  float format before the product is the identity at the ideal values.
-/
import proofs.«142704_j27805618274639_1_alg».proof.Proof.Gen.KernelIdeal.Skeleton
import proofs.«142704_j27805618274639_1_alg».proof.Proof.LayerNormDense
import proofs.«142704_j27805618274639_1_alg».proof.Proof.LibBiasLayer
import proofs.«142704_j27805618274639_1_alg».proof.Proof.LibPlainDot

noncomputable section

namespace Cert.KernelIdeal.Payload

open Cert.KernelIdeal Cert.KernelIdeal.Gen
open Idealize.ShloMosaic Idealize.ShloMosaic.ValueIdx
open Cert.LayerNormDense

/-- The body's product contracts the block's columns with the weight's rows: a plain matrix product. -/
theorem plain : Cert.DenseLayer.PlainDot dot_S448x3840_S3840x768_S448x768_1_0_0_1_n_n :=
  Cert.DenseLayer.plainDot_of_axes _ rfl rfl rfl rfl rfl rfl

variable (x : Vec Ideal S448x3840 .f32) (g sh : Vec Ideal S3840 .f32) (w : Vec Ideal S3840x768 .bf16) (bi : Vec Ideal S768 .f32)

/-- Entry `(p, q)` of what the body stores: `tokens` of row `p` of the block, at column `q`. -/
theorem payload_apply (p : Fin 448) (q : Fin 768) :
    k0_pay1 (F := Ideal) x g sh w bi (ix2 p q)
      = tokens (fun k => x (ix2 p k)) (fun k => g (ix1 k)) (fun k => sh (ix1 k)) (fun k q => w (ix2 k q)) (fun q => bi (ix1 q)) q := by
  unfold k0_pay1
  refine (Cert.BiasLayer.vector_affine_apply _ _ bi plain none shapeCasts_S768_S1x768 broadcasts_S1x768_S448x768 p q).trans ?_
  rw [Cert.BiasLayer.affine_apply]
  unfold Cert.DenseLayer.prodRow tokens
  refine congrArg (· + bi (ix1 q)) (Finset.sum_congr rfl fun k _ => ?_)
  have hr : ∀ (v : FVec Ideal S448x1 .f32) (i : S448x1.Idx), rsqrt v i = Ideal.rsqrt (v i) := fun _ _ => rfl
  have hsum : ∀ (src : FVec Ideal S448x3840 .f32) (h1 : S448x3840.Reduces [1] S448) (h2 : FKind.Formats .f32)
      (h3 : (0x00000000#32 : BitVec 32) = 0x00000000#32) (r : Fin 448),
      multiReduction .add [1] S448 src 0x00000000#32 h1 h2 h3 (ix1 r) = ∑ j : Fin 3840, src (ix2 r j) :=
    fun src h1 h2 h3 r => Cert.ColumnLayout.multiReduction_add_rows_apply src _ h1 h2 h3 r
  simp only [shapeCast_self, truncf_apply, addf_apply, mulf_apply, subf_apply, divf_apply, broadcast_apply, hr, hsum,
    Cert.BiasLayer.row_over_rows_apply, Cert.ColumnLayout.broadcastTo_a1_ab_apply, Cert.ColumnLayout.shapeCast_a_a1_apply,
    Ideal.ofBits_def, normed, centred, invStd, variance, mean]

end Cert.KernelIdeal.Payload

end
-- ==== Proof.KernelIdealTokens.lean ====
/-
  The token array the pipeline leaves, as ONE function of the contents the region finds (at the ideal values).

  Grid point `t` is handed rows `448 t … 448 t + 447` of the flattened patch matrix and the whole scale, shift, weight
  and bias; it writes back rows `448 t … 448 t + 447` of the result.  Entry `(r, q)` of the result depends on the patch
  matrix only through its row `r`, so what every point writes back is its block of one matrix, `tokenMatrix`: the
  layer-normalised row `r` projected through column `q` of the weight, plus the bias.  The 28 blocks tile the 12544
  rows, so the array ends holding `tokenMatrix`.
-/
import proofs.«142704_j27805618274639_1_alg».proof.Proof.KernelIdealRegion
import proofs.«142704_j27805618274639_1_alg».proof.Proof.KernelIdealPayload
import Idealize.ShloMosaic.Lib.Pipeline.Value

set_option maxRecDepth 16384

noncomputable section

namespace Cert.KernelIdeal.Tokens

open Cert.KernelIdeal Cert.KernelIdeal.Gen Cert.KernelIdeal.Host Cert.KernelIdeal.Region
open Idealize.ShloMosaic Idealize.ShloMosaic.TcCoe Idealize.SL.Sem Idealize.ShloMosaic.ValueIdx
open Idealize.ShloMosaic.Pipeline (Dat)
open Cert.LayerNormDense

/-- Entry `(r, q)` of the token matrix of a flat patch matrix `X`: row `r` normalised and projected. -/
def tokenAt (X : S12544x3840.Idx → EReal) (g sh : S3840.Idx → EReal) (w : S3840x768.Idx → EReal) (bi : S768.Idx → EReal)
    (r : Fin 12544) (q : Fin 768) : EReal :=
  tokens (fun k : Fin 3840 => X (ix2 r k)) (fun k => g (ix1 k)) (fun k => sh (ix1 k)) (fun k j => w (ix2 k j)) (fun j => bi (ix1 j)) q

/-- The whole `[12544, 768]` token matrix. -/
def tokenMatrix (X : S12544x3840.Idx → EReal) (g sh : S3840.Idx → EReal) (w : S3840x768.Idx → EReal) (bi : S768.Idx → EReal) :
    S12544x768.Idx → EReal :=
  fun i => tokenAt X g sh w bi ⟨(i 0).val, idx2_lt0 i⟩ ⟨(i 1).val, idx2_lt1 i⟩

theorem tokenMatrix_apply (X : S12544x3840.Idx → EReal) (g sh : S3840.Idx → EReal) (w : S3840x768.Idx → EReal) (bi : S768.Idx → EReal)
    (r : Fin 12544) (q : Fin 768) : tokenMatrix X g sh w bi (ix2 r q) = tokenAt X g sh w bi r q := rfl

/-- The token matrix at any index, unfolded to `tokens` of that index's row. -/
theorem tokenMatrix_at (X : S12544x3840.Idx → EReal) (g sh : S3840.Idx → EReal) (w : S3840x768.Idx → EReal) (bi : S768.Idx → EReal)
    (i : S12544x768.Idx) :
    tokenMatrix X g sh w bi i
      = tokens (fun k : Fin 3840 => X (ix2 (⟨(i 0).val, idx2_lt0 i⟩ : Fin 12544) k)) (fun k => g (ix1 k)) (fun k => sh (ix1 k))
          (fun k j => w (ix2 k j)) (fun j => bi (ix1 j)) (⟨(i 1).val, idx2_lt1 i⟩ : Fin 768) := rfl

variable (m : (ℓ : Loc nD τ sig) → Buf (Elt Ideal) ℓ)

theorem origin2 : (![0, 0] : Fin 2 → Nat) = fun _ => 0 := funext fun a => by fin_cases a <;> rfl
theorem origin1 : (![0] : Fin 1 → Nat) = fun _ => 0 := funext fun a => by fin_cases a <;> rfl

/-- The printed index maps over the grid: the row window moves with the result window along the rows and never along
    the columns; the four parameter windows never move. -/
theorem index_facts : ∀ t : Fin cfg0.N,
    win0_0.index t (0 : Fin 2) = win0_5.index t (0 : Fin 2) ∧ win0_0.index t (1 : Fin 2) = 0
    ∧ win0_1.index t (0 : Fin 1) = 0 ∧ win0_2.index t (0 : Fin 1) = 0
    ∧ win0_3.index t (0 : Fin 2) = 0 ∧ win0_3.index t (1 : Fin 2) = 0
    ∧ win0_4.index t (0 : Fin 1) = 0 ∧ win0_5.index t (1 : Fin 2) = 0 ∧ win0_5.index t (0 : Fin 2) ≤ 27 :=
  (by decide +kernel : ∀ t : Fin grid0.N, _)

/-- Every block of 448 rows is some point's. -/
theorem blocks_onto : ∀ q0 : Fin 28, ∃ t : Fin cfg0.N, win0_5.index t = ![q0.val, 0] :=
  (by decide +kernel : ∀ q0 : Fin 28, ∃ t : Fin grid0.N, win0_5.index t = ![q0.val, 0])

/-! ## Each window's block, read off its array

Stated for ARBITRARY contents of the five arrays: what a block holds depends on the array only through the entries the
block's rectangle names. -/

variable (c : Dev nD) (t : Fin cfg0.N)
  (A0 : Buf (Elt Ideal) ((c : Thread nD τ).loc main_v12)) (A1 : Buf (Elt Ideal) ((c : Thread nD τ).loc main_arg1))
  (A2 : Buf (Elt Ideal) ((c : Thread nD τ).loc main_arg2)) (A3 : Buf (Elt Ideal) ((c : Thread nD τ).loc main_v13))
  (A4 : Buf (Elt Ideal) ((c : Thread nD τ).loc main_arg4))

/-- Row `p` of point `t`'s row block is row `448 · (block index) + p` of the flat patch matrix. -/
theorem rows_read (p : Fin 448) (k : Fin 3840) (r : Fin 12544) (hr : r.val = win0_5.index t (0 : Fin 2) * 448 + p.val) :
    ((cfg0.win 0).blk t).view.read (Elt Ideal) A0 (ix2 p k) = A0 (ix2 r k) := by
  obtain ⟨e0, e1, -⟩ := index_facts t
  rw [View.read_apply]
  refine congrArg A0 (funext fun a => Fin.ext ?_)
  match a with
  | ⟨0, _⟩ => show win0_0.index t (0 : Fin 2) * 448 + 1 * p.val = r.val; rw [hr, e0]; omega
  | ⟨1, _⟩ => show win0_0.index t (1 : Fin 2) * 3840 + 1 * k.val = k.val; rw [e1]; omega

/-- The scale block is the whole scale vector, at every point. -/
theorem gamma_read (k : Fin 3840) : ((cfg0.win 1).blk t).view.read (Elt Ideal) A1 (ix1 k) = A1 (ix1 k) := by
  obtain ⟨-, -, e2, -⟩ := index_facts t
  rw [View.read_apply]
  refine congrArg A1 (funext fun a => Fin.ext ?_)
  match a with
  | ⟨0, _⟩ => show win0_1.index t (0 : Fin 1) * 3840 + 1 * k.val = k.val; rw [e2]; omega

/-- The shift block is the whole shift vector. -/
theorem beta_read (k : Fin 3840) : ((cfg0.win 2).blk t).view.read (Elt Ideal) A2 (ix1 k) = A2 (ix1 k) := by
  obtain ⟨-, -, -, e3, -⟩ := index_facts t
  rw [View.read_apply]
  refine congrArg A2 (funext fun a => Fin.ext ?_)
  match a with
  | ⟨0, _⟩ => show win0_2.index t (0 : Fin 1) * 3840 + 1 * k.val = k.val; rw [e3]; omega

/-- The weight block is the whole weight. -/
theorem weight_read (k : Fin 3840) (j : Fin 768) : ((cfg0.win 3).blk t).view.read (Elt Ideal) A3 (ix2 k j) = A3 (ix2 k j) := by
  obtain ⟨-, -, -, -, e4, e5, -⟩ := index_facts t
  rw [View.read_apply]
  refine congrArg A3 (funext fun a => Fin.ext ?_)
  match a with
  | ⟨0, _⟩ => show win0_3.index t (0 : Fin 2) * 3840 + 1 * k.val = k.val; rw [e4]; omega
  | ⟨1, _⟩ => show win0_3.index t (1 : Fin 2) * 768 + 1 * j.val = j.val; rw [e5]; omega

/-- The bias block is the whole bias vector. -/
theorem bias_read (j : Fin 768) : ((cfg0.win 4).blk t).view.read (Elt Ideal) A4 (ix1 j) = A4 (ix1 j) := by
  obtain ⟨-, -, -, -, -, -, e6, -⟩ := index_facts t
  rw [View.read_apply]
  refine congrArg A4 (funext fun a => Fin.ext ?_)
  match a with
  | ⟨0, _⟩ => show win0_4.index t (0 : Fin 1) * 768 + 1 * j.val = j.val; rw [e6]; omega

/-! ## What each point writes back, and the array after the last -/

/-- Entry `j` of the result window's block at point `t` is the array's entry at row `448 · (block index) + j₀`, column `j₁`. -/
theorem result_read (G : Buf (Elt Ideal) ((c : Thread nD τ).loc main_v14)) (j : ((cfg0.win 5).xblock (grid0.coords t)).Idx)
    (r : Fin 12544) (q : Fin 768) (hr : r.val = win0_5.index t (0 : Fin 2) * 448 + (j 0).val) (hq : q.val = (j 1).val) :
    ((cfg0.win 5).blk t).view.read (Elt Ideal) G j = G (ix2 r q) := by
  obtain ⟨-, -, -, -, -, -, -, e7, e8⟩ := index_facts t
  rw [View.read_apply]
  refine congrArg G (funext fun a => Fin.ext ?_)
  match a with
  | ⟨0, _⟩ => show win0_5.index t (0 : Fin 2) * 448 + 1 * (j 0).val = r.val; omega
  | ⟨1, _⟩ => show win0_5.index t (1 : Fin 2) * 768 + 1 * (j 1).val = q.val; rw [e7]; omega

/-- For blocks that hold the named rows and entries of five arrays, what the body leaves of them at point `t`, cut to the
    result window's block, is block `t` of the token matrix of the arrays. -/
theorem block_of_matrix (X0 : Vec Ideal S448x3840 .f32) (X1 X2 : Vec Ideal S3840 .f32) (X3 : Vec Ideal S3840x768 .bf16)
    (X4 : Vec Ideal S768 .f32)
    (h0 : ∀ (p : Fin 448) (k : Fin 3840) (r : Fin 12544), r.val = win0_5.index t (0 : Fin 2) * 448 + p.val → X0 (ix2 p k) = A0 (ix2 r k))
    (h1 : ∀ k : Fin 3840, X1 (ix1 k) = A1 (ix1 k)) (h2 : ∀ k : Fin 3840, X2 (ix1 k) = A2 (ix1 k))
    (h3 : ∀ (k : Fin 3840) (j : Fin 768), X3 (ix2 k j) = A3 (ix2 k j)) (h4 : ∀ j : Fin 768, X4 (ix1 j) = A4 (ix1 j)) :
    (cfg0.win 5).cut (grid0.coords t) (tokensBlock X0 X1 X2 X3 X4)
      = ((cfg0.win 5).blk t).view.read (Elt Ideal) (tokenMatrix A0 A1 A2 A3 A4) := by
  unfold tokensBlock
  rw [View.canon_unit_zero origin2]
  simp only [View.ld_unit_zero (S := S448x3840) origin2, View.ld_unit_zero (S := S3840) origin1,
    View.ld_unit_zero (S := S3840x768) origin2, View.ld_unit_zero (S := S768) origin1]
  obtain ⟨-, -, -, -, -, -, -, e7, e8⟩ := index_facts t
  funext j
  have hj0 : (j 0).val < 448 := (j 0).isLt
  have hj1 : (j 1).val < 768 := (j 1).isLt
  have hx : (cfg0.win 5).xinj (grid0.coords t) j = (ix2 (⟨(j 0).val, hj0⟩ : Fin 448) (⟨(j 1).val, hj1⟩ : Fin 768) : S448x768.Idx) :=
    funext fun a => Fin.ext (by
      match a with
      | ⟨0, _⟩ => rfl
      | ⟨1, _⟩ => rfl)
  rw [result_read c t (tokenMatrix A0 A1 A2 A3 A4) j (⟨win0_5.index t (0 : Fin 2) * 448 + (j 0).val, by omega⟩ : Fin 12544)
    (⟨(j 1).val, hj1⟩ : Fin 768) rfl rfl, tokenMatrix_apply]
  show k0_pay1 (F := Ideal) X0 X1 X2 X3 X4 ((cfg0.win 5).xinj (grid0.coords t) j) = _
  rw [hx]
  refine (Cert.KernelIdeal.Payload.payload_apply X0 X1 X2 X3 X4 _ _).trans ?_
  unfold tokenAt
  exact tokens_congr (fun k => h0 _ k _ rfl) h1 h2 h3 h4 rfl

/-- The token matrix of the contents the region finds. -/
abbrev result : Buf (Elt Ideal) ((c : Thread nD τ).loc main_v14) :=
  tokenMatrix (entry m c main_v12) (entry m c main_arg1) (entry m c main_arg2) (entry m c main_v13) (entry m c main_arg4)

/-- Point `t` writes back block `t` of `result`. -/
theorem written_back : (data m 0 c).flushed 5 t = ((cfg0.win 5).blk t).view.read (Elt Ideal) (result m c) := by
  show (cfg0.win 5).cut (grid0.coords t) ((data m 0 c).after 5 t) = _
  rw [left_tokens]
  exact block_of_matrix c t (entry m c main_v12) (entry m c main_arg1) (entry m c main_arg2) (entry m c main_v13) (entry m c main_arg4)
    (blockAt m c 0 t) (blockAt m c 1 t) (blockAt m c 2 t) (blockAt m c 3 t) (blockAt m c 4 t)
    (fun p k r hr => rows_read c t (entry m c main_v12) p k r hr) (fun k => gamma_read c t (entry m c main_arg1) k)
    (fun k => beta_read c t (entry m c main_arg2) k) (fun k j => weight_read c t (entry m c main_v13) k j)
    (fun j => bias_read c t (entry m c main_arg4) j)

/-- An index of the array is in point `t`'s block iff each coordinate is in the block's range on its axis. -/
theorem mem_block (i : S12544x768.Idx) :
    i ∈ ((cfg0.win 5).blk t).view.set ↔ ∀ a : Fin 2, win0_5.index t a * S448x768.size a ≤ (i a).val
      ∧ (i a).val < win0_5.index t a * S448x768.size a + S448x768.size a := by
  show i ∈ ((View.whole main_v14).slice (win0_5.rect t)).set ↔ _
  rw [View.set_slice_whole, Rect.mem_set_unit]
  exact Iff.rfl

/-- Every row of the result is in some point's block: row `r` in block `r / 448`. -/
theorem covered (i : S12544x768.Idx) :
    ∃ t : Fin cfg0.N, (cfg0.win 5).flush t = true ∧ i ∈ ((cfg0.win 5).blk t).view.set := by
  have hi0 : (i 0).val < 12544 := (i 0).isLt
  have hi1 : (i 1).val < 768 := (i 1).isLt
  obtain ⟨t, ht⟩ := blocks_onto ⟨(i 0).val / 448, by omega⟩
  have q0 : win0_5.index t (0 : Fin 2) = (i 0).val / 448 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 448 ≤ (i 0).val ∧ (i 0).val < win0_5.index t (0 : Fin 2) * 448 + 448; omega
  | ⟨1, _⟩ => show win0_5.index t (1 : Fin 2) * 768 ≤ (i 1).val ∧ (i 1).val < win0_5.index t (1 : Fin 2) * 768 + 768; omega

/-- After the last point the result array holds `result`. -/
theorem final_array : (data m 0 c).arrAt 5 cfg0.N = result m c :=
  (data m 0 c).arrAt_eq_of_cover 5 (result m c) (fun t _ => written_back m c t) covered

end Cert.KernelIdeal.Tokens

end
-- ==== Proof.KernelIdealGlue.lean ====
/-
  What the host lines around the region compute, as terms of the launch arrays (at any float family `F`).

  Before the region the image is cropped four ways by half a patch, each crop padded back to 224 x 224 with zeros, the
  image and the four shifted copies concatenated along the channels, and the 15-channel result cut into 14 x 14
  patches of 16 x 16 x 15 = 3840 entries each (`patches`); the region's row operand is that tensor flattened to 12544
  rows, and its weight operand is the weight in another float format.  After the region the 12544 token rows are
  reshaped to 64 images of 196 tokens.  The second result of @main is `patches` itself.
-/
import proofs.«142704_j27805618274639_1_alg».proof.Proof.KernelIdealRegion
import Idealize.ShloMosaic.Lib.StableHlo.Run

set_option maxRecDepth 16384

noncomputable section

namespace Cert.KernelIdeal.Glue

open Cert.KernelIdeal Cert.KernelIdeal.Gen Cert.KernelIdeal.Host Cert.KernelIdeal.Region
open Idealize.ShloMosaic Idealize.ShloMosaic.TcCoe Idealize.SL.Sem Idealize.ShloMosaic.StableHlo
open Idealize.ShloMosaic.Pipeline (Dat)

variable {F : FTy → Type} [FloatOps F]

/-- The patch tensor of an image: the image and its four half-patch shifts side by side on the channel axis, cut into
    14 x 14 patches of 3840 entries. -/
def patches (x : (⟨S64x224x224x3, .f32⟩ : BufTy).Contents (Elt F)) : (⟨S64x14x14x3840, .f32⟩ : BufTy).Contents (Elt F) :=
  shapeCast _ (transpose S64x14x14x16x16x15 [0, 1, 3, 2, 4, 5] (shapeCast _ (concatenate S64x224x224x15 3 [⟨S64x224x224x3, x⟩, ⟨S64x224x224x3, (pad S64x224x224x3 ![0, 0, 0, 0] ![0, 8, 8, 0] ![0, 0, 0, 0] (extractStridedSlice S64x216x216x3 ![0, 8, 8, 0] x slices_S64x224x224x3_S64x216x216x3_0_8_8_0) (sitofp .f32 (constantI S_ 32 0#32)) pads_S64x216x216x3_S64x224x224x3_000_080_080_000 h_S_)⟩, ⟨S64x224x224x3, (pad S64x224x224x3 ![0, 8, 0, 0] ![0, 0, 8, 0] ![0, 0, 0, 0] (extractStridedSlice S64x216x216x3 ![0, 0, 8, 0] x slices_S64x224x224x3_S64x216x216x3_0_0_8_0) (sitofp .f32 (constantI S_ 32 0#32)) pads_S64x216x216x3_S64x224x224x3_000_800_080_000 h_S_)⟩, ⟨S64x224x224x3, (pad S64x224x224x3 ![0, 0, 8, 0] ![0, 8, 0, 0] ![0, 0, 0, 0] (extractStridedSlice S64x216x216x3 ![0, 8, 0, 0] x slices_S64x224x224x3_S64x216x216x3_0_8_0_0) (sitofp .f32 (constantI S_ 32 0#32)) pads_S64x216x216x3_S64x224x224x3_000_080_800_000 h_S_)⟩, ⟨S64x224x224x3, (pad S64x224x224x3 ![0, 8, 8, 0] ![0, 0, 0, 0] ![0, 0, 0, 0] (extractStridedSlice S64x216x216x3 ![0, 0, 0, 0] x slices_S64x224x224x3_S64x216x216x3_0_0_0_0) (sitofp .f32 (constantI S_ 32 0#32)) pads_S64x216x216x3_S64x224x224x3_000_800_800_000 h_S_)⟩] concatenates_S64x224x224x3_S64x224x224x3_S64x224x224x3_S64x224x224x3_S64x224x224x3_S64x224x224x15_d3) shapeCasts_S64x224x224x15_S64x14x16x14x16x15) transposes_S64x14x16x14x16x15_S64x14x14x16x16x15_0_1_3_2_4_5) shapeCasts_S64x14x14x16x16x15_S64x14x14x3840

variable (m : (ℓ : Loc nD τ sig) → Buf (Elt F) ℓ)

set_option maxHeartbeats 2000000 in
/-- When the region is entered the patch buffer holds the patch tensor of the launched image. -/
theorem entry_patches (c : Dev nD) : entry m c main_v11 = patches (m ((c : Thread nD τ).loc main_arg0)) := by
  unfold patches
  show StableHlo.after (List.flatten (Host.before (F := F))) (fun b => m (c, b)) (Proc.devRef .tc main_v11) = _
  simp only [Host.before, hostOps0, hostOps0_1, hostOps0_2, hostOps0_3, hostOps0_4, hostOps0_5, hostOps0_6, hostOps0_7, hostOps0_8,
    List.flatten_cons, List.flatten_nil, List.append_nil, List.cons_append, List.nil_append]
  after_results_simp <;> rfl

set_option maxHeartbeats 2000000 in
/-- The region's row operand is the patch buffer's contents flattened to 12544 rows. -/
theorem entry_rows (c : Dev nD) :
    entry m c main_v12 = shapeCast S12544x3840 (entry m c main_v11) shapeCasts_S64x14x14x3840_S12544x3840 := by
  show StableHlo.after (List.flatten (Host.before (F := F))) (fun b => m (c, b)) (Proc.devRef .tc main_v12)
    = shapeCast S12544x3840 (StableHlo.after (List.flatten (Host.before (F := F))) (fun b => m (c, b)) (Proc.devRef .tc main_v11)) _
  simp only [Host.before, hostOps0, hostOps0_1, hostOps0_2, hostOps0_3, hostOps0_4, hostOps0_5, hostOps0_6, hostOps0_7, hostOps0_8,
    List.flatten_cons, List.flatten_nil, List.append_nil, List.cons_append, List.nil_append]
  after_results_simp <;> rfl

set_option maxHeartbeats 2000000 in
/-- The region's weight operand is the launched weight in the narrower float format. -/
theorem entry_weight (c : Dev nD) :
    entry m c main_v13 = truncf .bf16 (m ((c : Thread nD τ).loc main_arg3)) bitsLt_bf16_f32 := by
  show StableHlo.after (List.flatten (Host.before (F := F))) (fun b => m (c, b)) (Proc.devRef .tc main_v13) = _
  simp only [Host.before, hostOps0, hostOps0_1, hostOps0_2, hostOps0_3, hostOps0_4, hostOps0_5, hostOps0_6, hostOps0_7, hostOps0_8,
    List.flatten_cons, List.flatten_nil, List.append_nil, List.cons_append, List.nil_append]
  after_results_simp <;> rfl

/-- At the end the patch buffer still holds what it held at the region's entry: the reshape after the region writes
    another buffer and the pipeline stages none of it. -/
theorem final_patches (c : Dev nD) :
    Pipeline.afterTail₀ cfgs (data m) 0 (entry0 m) Host.after c main_v11 = entry m c main_v11 :=
  final_of_bypass m (data m) c main_v11 (by decide) (by decide)

/-- At the end the token buffer holds the pipeline's result array reshaped to 64 images of 196 tokens. -/
theorem final_tokens (c : Dev nD) :
    Pipeline.afterTail₀ cfgs (data m) 0 (entry0 m) Host.after c main_v15
      = shapeCast S64x196x768 ((data m 0 c).arrAt 5 cfg0.N) shapeCasts_S12544x768_S64x196x768 := by
  unfold Pipeline.afterTail₀
  show StableHlo.after hostOps1 _ (Proc.devRef .tc main_v15) = _
  after_results
  rw [Pipeline.withArrays_arr spec0 launch0.win.arr_inj c _ _ 5]
  rfl

end Cert.KernelIdeal.Glue

end
-- ==== Proof.ReferenceTokens.lean ====
/-
  The reference's token tensor at the ideal values, read entry by entry: entry `(b, n, q)` is the layer-normalised row
  `(b, n, ·)` of the patch tensor viewed as `[64, 196, 3840]`, projected through column `q` of the weight, plus the bias
  at `q`.  The host program keeps the row statistics as `[64, 196, 1]` columns and lays them, and the three parameter
  vectors, over the tensor by broadcasts; each stage is read here at an index through the stage-by-stage reading of the
  run: the row sum, the mean column, the centred entry, the variance column, its reciprocal square root, the normalised
  entry, and last the projection.
-/
import proofs.«142704_j27805618274639_1_alg».proof.Proof.Gen.ReferenceIdeal.Read
import proofs.«142704_j27805618274639_1_alg».proof.Proof.LayerNormDense

noncomputable section

namespace Cert.ReferenceIdeal.Tokens

open Cert.ReferenceIdeal Cert.ReferenceIdeal.Gen Cert.ReferenceIdeal.Read
open Idealize.ShloMosaic Idealize.ShloMosaic.ValueIdx
open Cert.LayerNormDense

/-! ## The composed index functions of the stages, at coordinates -/

variable (b : Fin 64) (n : Fin 196)

theorem row_of_pair (k : Fin 3840) : idx_main_v13 (ix2 b n) k = ix3 b n k := funext fun a => Fin.ext (by
  match a with | ⟨0, _⟩ => rfl | ⟨1, _⟩ => rfl | ⟨2, _⟩ => rfl)
theorem row_of_pair' (k : Fin 3840) : idx_main_v20 (ix2 b n) k = ix3 b n k := funext fun a => Fin.ext (by
  match a with | ⟨0, _⟩ => rfl | ⟨1, _⟩ => rfl | ⟨2, _⟩ => rfl)
theorem pair_of_col : idx_main_v14 (ix3 b n (0 : Fin 1)) = ix2 b n := funext fun a => Fin.ext (by
  match a with | ⟨0, _⟩ => rfl | ⟨1, _⟩ => rfl)
theorem pair_of_col' : idx_main_v21 (ix3 b n (0 : Fin 1)) = ix2 b n := funext fun a => Fin.ext (by
  match a with | ⟨0, _⟩ => rfl | ⟨1, _⟩ => rfl)
theorem col_of_entry17 (k : Fin 3840) : idx_main_v17 (ix3 b n k) = ix3 b n (0 : Fin 1) := funext fun a => Fin.ext (by
  match a with | ⟨0, _⟩ => rfl | ⟨1, _⟩ => rfl | ⟨2, _⟩ => rfl)
theorem col_of_entry24 (k : Fin 3840) : idx_main_v24 (ix3 b n k) = ix3 b n (0 : Fin 1) := funext fun a => Fin.ext (by
  match a with | ⟨0, _⟩ => rfl | ⟨1, _⟩ => rfl | ⟨2, _⟩ => rfl)
theorem col_of_entry29 (k : Fin 3840) : idx_main_v29 (ix3 b n k) = ix3 b n (0 : Fin 1) := funext fun a => Fin.ext (by
  match a with | ⟨0, _⟩ => rfl | ⟨1, _⟩ => rfl | ⟨2, _⟩ => rfl)
theorem scale_of_entry (k : Fin 3840) : idx_main_v31 (idx_main_v32 (ix3 b n k)) = ix1 k := funext fun a => Fin.ext (by
  match a with | ⟨0, _⟩ => rfl)
theorem shift_of_entry (k : Fin 3840) : idx_main_v34 (idx_main_v35 (ix3 b n k)) = ix1 k := funext fun a => Fin.ext (by
  match a with | ⟨0, _⟩ => rfl)
theorem bias_of_entry (q : Fin 768) : idx_main_v38 (idx_main_v39 (ix3 b n q)) = ix1 q := funext fun a => Fin.ext (by
  match a with | ⟨0, _⟩ => rfl)
theorem left_of_entry (q : Fin 768) (k : Fin 3840) : lidx_main_v37 (ix3 b n q) k = ix3 b n k := funext fun a => Fin.ext (by
  match a with | ⟨0, _⟩ => rfl | ⟨1, _⟩ => rfl | ⟨2, _⟩ => rfl)
theorem right_of_entry (q : Fin 768) (k : Fin 3840) : ridx_main_v37 (ix3 b n q) k = ix2 k q := funext fun a => Fin.ext (by
  match a with | ⟨0, _⟩ => rfl | ⟨1, _⟩ => rfl)

/-! ## The stages -/

variable (x0 : (⟨S64x224x224x3, .f32⟩ : BufTy).Contents (Elt Ideal)) (x1 x2 : (⟨S3840, .f32⟩ : BufTy).Contents (Elt Ideal))
  (x3 : (⟨S3840x768, .f32⟩ : BufTy).Contents (Elt Ideal)) (x4 : (⟨S768, .f32⟩ : BufTy).Contents (Elt Ideal))

/-- Row `(b, n, ·)` of the flattened patches. -/
abbrev row : Fin 3840 → EReal := fun k => val_main_v12 (F := Ideal) x0 (ix3 b n k)

theorem zero_word : (FloatOps.ofBits (F := Ideal) .f32 0x00000000#32 : EReal) = 0 := Ideal.ofBits_zero_f32

theorem row_sum : val_main_v13 (F := Ideal) x0 (ix2 b n) = ∑ k : Fin 3840, row b n x0 k := by
  rw [val_main_v13_apply, val_main_cst_apply, zero_word, zero_add]
  exact Finset.sum_congr rfl fun k _ => congrArg (val_main_v12 (F := Ideal) x0) (row_of_pair b n k)

theorem mean_col : val_main_v16 (F := Ideal) x0 (ix3 b n (0 : Fin 1)) = mean (row b n x0) := by
  rw [val_main_v16_apply, val_main_v14_apply, pair_of_col, row_sum, val_main_v15_apply, val_main_cst_3_apply]
  unfold mean
  rfl

theorem centred_at (k : Fin 3840) : val_main_v18 (F := Ideal) x0 (ix3 b n k) = centred (row b n x0) k := by
  rw [val_main_v18_apply, val_main_v17_apply, col_of_entry17, mean_col]
  unfold centred
  rfl

theorem centred_at' (k : Fin 3840) : val_main_v25 (F := Ideal) x0 (ix3 b n k) = centred (row b n x0) k := by
  rw [val_main_v25_apply, val_main_v24_apply, col_of_entry24, mean_col]
  unfold centred
  rfl

theorem var_col : val_main_v23 (F := Ideal) x0 (ix3 b n (0 : Fin 1)) = variance (row b n x0) := by
  rw [val_main_v23_apply, val_main_v21_apply, pair_of_col', val_main_v20_apply, val_main_cst_4_apply, zero_word, zero_add,
    val_main_v22_apply, val_main_cst_5_apply]
  unfold variance
  refine congrArg (fun s => Ideal.div s lenWord) (Finset.sum_congr rfl fun k _ => ?_)
  rw [row_of_pair', val_main_v19_apply, centred_at]
  rfl

theorem inv_col : val_main_v28 (F := Ideal) x0 (ix3 b n (0 : Fin 1)) = invStd (row b n x0) := by
  rw [val_main_v28_apply, val_main_v27_apply, var_col, val_main_v26_apply, val_main_cst_6_apply]
  unfold invStd
  rfl

theorem normed_at (k : Fin 3840) :
    val_main_v36 (F := Ideal) x0 x1 x2 (ix3 b n k) = normed (row b n x0) (fun k => x1 (ix1 k)) (fun k => x2 (ix1 k)) k := by
  rw [val_main_v36_apply, val_main_v33_apply, val_main_v30_apply, centred_at', val_main_v29_apply, col_of_entry29, inv_col,
    val_main_v32_apply, val_main_v31_apply, scale_of_entry, val_main_v35_apply, val_main_v34_apply, shift_of_entry]
  unfold normed
  rfl

/-- Entry `(b, n, q)` of the reference's tokens: `tokens` of row `(b, n, ·)` of the flattened patches, at column `q`. -/
theorem tokens_apply (q : Fin 768) :
    val_main_v40 (F := Ideal) x0 x1 x2 x3 x4 (ix3 b n q)
      = tokens (row b n x0) (fun k => x1 (ix1 k)) (fun k => x2 (ix1 k)) (fun k j => x3 (ix2 k j)) (fun j => x4 (ix1 j)) q := by
  rw [val_main_v40_apply, val_main_v37_apply, val_main_v39_apply, val_main_v38_apply, bias_of_entry]
  unfold tokens
  refine congrArg (· + x4 (ix1 q)) (Finset.sum_congr rfl fun k _ => ?_)
  rw [left_of_entry, right_of_entry, normed_at]

end Cert.ReferenceIdeal.Tokens

end
-- ==== Proof.Bridge.lean ====
/-
  The two idealized programs compute the same results.

  Both apply the same host lines to the image to get the patch tensor `[64, 14, 14, 3840]`, which is also their second
  result.  The kernel's program flattens it to `[12544, 3840]`, normalises and projects each row, and reshapes the
  `[12544, 768]` result to `[64, 196, 768]`; the reference views it as `[64, 196, 3840]` and normalises and projects
  each row `(b, n, ·)`.  Row `196 b + n` of the flat matrix and row `(b, n, ·)` of the tensor are the same entries of the
  patch tensor (both reshapes keep the row-major order), and entry `(b, n, q)` of the reshaped result is entry
  `(196 b + n, q)` of the flat one; the weight's change of float format is the identity at the ideal values.  So entry
  by entry both token tensors are `tokens` of the same row.  No property of the inputs is used.
-/
import proofs.«142704_j27805618274639_1_alg».proof.Defs
import proofs.«142704_j27805618274639_1_alg».proof.Proof.KernelIdealTokens
import proofs.«142704_j27805618274639_1_alg».proof.Proof.KernelIdealGlue
import proofs.«142704_j27805618274639_1_alg».proof.Proof.ReferenceTokens
import proofs.«142704_j27805618274639_1_alg».proof.Proof.Gen.Pre_finite_inputs

set_option maxRecDepth 16384

noncomputable section

namespace Cert.Proof.Bridge

open Idealize.ShloMosaic Idealize.ShloMosaic.TcCoe Idealize.SL.Sem Idealize.ShloMosaic.ValueIdx
open Cert.LayerNormDense

/-! ## The patch tensor is one function of the image in both programs -/

/-- The kernel program's patch tensor and the reference's stage are the same term of the image, at any float family. -/
theorem patches_same {F : FTy → Type} [FloatOps F] (x : (⟨Cert.KernelIdeal.S64x224x224x3, .f32⟩ : BufTy).Contents (Elt F)) :
    Cert.KernelIdeal.Glue.patches (F := F) x = Cert.ReferenceIdeal.Read.val_main_v11 (F := F) x := rfl

/-! ## The two token tensors, entry by entry -/

section Entries

variable (x0 : (⟨Cert.KernelIdeal.S64x224x224x3, .f32⟩ : BufTy).Contents (Elt Ideal))
  (x1 x2 : (⟨Cert.KernelIdeal.S3840, .f32⟩ : BufTy).Contents (Elt Ideal))
  (x3 : FVec Ideal Cert.KernelIdeal.S3840x768 .f32)
  (x4 : (⟨Cert.KernelIdeal.S768, .f32⟩ : BufTy).Contents (Elt Ideal))

/-- The kernel program's token tensor as a term of the launch arrays. -/
def kernelTokens : Cert.KernelIdeal.S64x196x768.Idx → EReal :=
  shapeCast Cert.KernelIdeal.S64x196x768
    (Cert.KernelIdeal.Tokens.tokenMatrix
      (shapeCast Cert.KernelIdeal.S12544x3840 (Cert.KernelIdeal.Glue.patches (F := Ideal) x0) Cert.KernelIdeal.Gen.shapeCasts_S64x14x14x3840_S12544x3840)
      x1 x2 (truncf (F := Ideal) .bf16 x3 Cert.KernelIdeal.Gen.bitsLt_bf16_f32) x4)
    Cert.KernelIdeal.Gen.shapeCasts_S12544x768_S64x196x768

/-- Row `196 b + n` of the flattened patches is row `(b, n, ·)` of the patches viewed as `[64, 196, 3840]`. -/
theorem flat_row (b : Fin 64) (n : Fin 196) (k : Fin 3840) (r : Fin 12544) (hr : r.val = b.val * 196 + n.val) :
    shapeCast Cert.KernelIdeal.S12544x3840 (Cert.KernelIdeal.Glue.patches (F := Ideal) x0) Cert.KernelIdeal.Gen.shapeCasts_S64x14x14x3840_S12544x3840 (ix2 r k)
      = Cert.ReferenceIdeal.Read.val_main_v12 (F := Ideal) x0 (ix3 b n k) := by
  rw [Cert.ReferenceIdeal.Read.val_main_v12_apply, ← patches_same]
  generalize Cert.KernelIdeal.Glue.patches (F := Ideal) x0 = y
  refine shapeCast_apply y _ (ix2 r k) (Cert.ReferenceIdeal.Read.idx_main_v12 (ix3 b n k)) ?_
  rw [Shape.rowMajor_val_four, Shape.rowMajor_val_two]
  have hb : b.val < 64 := b.isLt
  have hn : n.val < 196 := n.isLt
  have hk : k.val < 3840 := k.isLt
  show ((((b.val * 196 + n.val) * 3840 + k.val) / 752640 * 14 + ((b.val * 196 + n.val) * 3840 + k.val) / 53760 % 14) * 14
      + ((b.val * 196 + n.val) * 3840 + k.val) / 3840 % 14) * 3840 + ((b.val * 196 + n.val) * 3840 + k.val) % 3840
    = r.val * 3840 + k.val
  omega

/-- Entry by entry the two token tensors are `tokens` of the same row. -/
theorem tokens_same : kernelTokens x0 x1 x2 x3 x4 = Cert.ReferenceIdeal.Read.val_main_v40 (F := Ideal) x0 x1 x2 x3 x4 := by
  funext i
  obtain ⟨b, n, q, rfl⟩ : ∃ (b : Fin 64) (n : Fin 196) (q : Fin 768), i = ix3 b n q := ⟨i 0, i 1, i 2, eq_ix3 i⟩
  have hb : b.val < 64 := b.isLt
  have hn : n.val < 196 := n.isLt
  rw [Cert.ReferenceIdeal.Tokens.tokens_apply]
  unfold kernelTokens
  refine (shapeCast_apply _ _ (ix3 b n q) (ix2 (⟨b.val * 196 + n.val, by omega⟩ : Fin 12544) q) ?_).trans ?_
  · rw [Shape.rowMajor_val_two, Shape.rowMajor_val_three]
    rfl
  · rw [Cert.KernelIdeal.Tokens.tokenMatrix_apply]
    unfold Cert.KernelIdeal.Tokens.tokenAt
    exact tokens_congr (fun k => flat_row x0 b n k _ rfl) (fun _ => rfl) (fun _ => rfl) (fun _ _ => rfl) (fun _ => rfl) rfl

end Entries

/-! ## The kernel program's run, its two results named -/

section Run

open Cert.KernelIdeal Cert.KernelIdeal.Gen Cert.KernelIdeal.Host Cert.KernelIdeal.Region

variable (m : (ℓ : Loc nD τ sig) → Buf (Elt Ideal) ℓ) (ρ : Dev nD → PrngReg)

/-- The token array the pipeline leaves, reshaped, is `kernelTokens` of the launch arrays. -/
theorem tokens_of_launch (c : Dev nD) :
    shapeCast S64x196x768 (Cert.KernelIdeal.Tokens.result m c) shapeCasts_S12544x768_S64x196x768
      = kernelTokens (m ((c : Thread nD τ).loc main_arg0)) (m ((c : Thread nD τ).loc main_arg1)) (m ((c : Thread nD τ).loc main_arg2))
          (m ((c : Thread nD τ).loc main_arg3)) (m ((c : Thread nD τ).loc main_arg4)) := by
  unfold kernelTokens
  show shapeCast S64x196x768 (Cert.KernelIdeal.Tokens.tokenMatrix (entry m c main_v12) (entry m c main_arg1) (entry m c main_arg2)
    (entry m c main_v13) (entry m c main_arg4)) _ = _
  rw [Cert.KernelIdeal.Glue.entry_rows, Cert.KernelIdeal.Glue.entry_patches, Cert.KernelIdeal.Glue.entry_weight,
    entry_arg1, entry_arg2, entry_arg4]

/-- Every weakly fair execution of the kernel's program terminates with the token buffer at `kernelTokens` of the launch
    arrays, the patch buffer at the launch image's patches, and the argument arrays as launched. -/
theorem kernel_run : θ_run defs (onTc (τ := τ) (main (F := Ideal))) ⟨m, fun _ => 0, ρ⟩ (fun r => ∀ c : Dev nD,
      r.2.mem ((c.tc : Thread nD τ).loc main_v15)
        = kernelTokens (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_v11) = Cert.KernelIdeal.Glue.patches (F := Ideal) (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v15 (Pipeline.mem_restRefs_of main_v15 (by decide) (by decide))).trans
        ((Cert.KernelIdeal.Glue.final_tokens m c).trans
          ((congrArg (fun A => shapeCast S64x196x768 A shapeCasts_S12544x768_S64x196x768) (Cert.KernelIdeal.Tokens.final_array m c)).trans
            (tokens_of_launch m c))),
      ((h c).2 main_v11 (Pipeline.mem_restRefs_of main_v11 (by decide) (by decide))).trans
        ((Cert.KernelIdeal.Glue.final_patches m c).trans (Cert.KernelIdeal.Glue.entry_patches m c)),
      ((h c).2 main_arg0 (Pipeline.mem_restRefs_of main_arg0 (by decide) (by decide))).trans
        ((final_of_bypass m (data m) c main_arg0 (by decide) (by decide)).trans (entry_arg0 m c)),
      ((h c).1 1).trans ((((data m) 0 c).arrAt_in 1 rfl _).trans ((data_A m c 1).trans (entry_arg1 m c))),
      ((h c).1 2).trans ((((data m) 0 c).arrAt_in 2 rfl _).trans ((data_A m c 2).trans (entry_arg2 m c))),
      ((h c).2 main_arg3 (Pipeline.mem_restRefs_of main_arg3 (by decide) (by decide))).trans
        ((final_of_bypass m (data m) c main_arg3 (by decide) (by decide)).trans (entry_arg3 m c)),
      ((h c).1 4).trans ((((data m) 0 c).arrAt_in 4 rfl _).trans ((data_A m c 4).trans (entry_arg4 m c)))⟩)
    (run_main m ρ)

end Run

/-! ## The claim -/

/-- From memories agreeing on the five arguments both programs run, end with the same token tensor and the same patch
    tensor, and leave their arguments unchanged. -/
theorem algebraic : Cert.algebraic_KernelIdeal_ReferenceIdeal := by
  intro m ρ m' ρ' _ hagree
  refine ⟨_, _, kernel_run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v40_eq, (hagree c).1, (hagree c).2.1, (hagree c).2.2.1, (hagree c).2.2.2.1, (hagree c).2.2.2.2]
    exact (tokens_same _ _ _ _ _).symm
  · rw [(hagree c).1]
    rfl

end Cert.Proof.Bridge

end
-- ==== Proof.lean ====
/-
  A shifted-patch tokeniser: the image and its four half-patch shifts are concatenated on the channel axis and cut into
  14 x 14 patches of 3840 entries; every patch row is layer-normalised (mean and variance over the 3840 entries, a scale
  and a shift per entry) and projected through a 3840 x 768 weight plus a bias.  The kernel's program does the
  normalisation and the projection in one pallas_call over 28 blocks of 448 rows of the flattened `[12544, 3840]` patch
  matrix; the reference does them with host operations on the `[64, 196, 3840]` view.  Both return the tokens
  `[64, 196, 768]` and the patch tensor.

  The frames of the two kernel programs (one text, read at the word level and at the ideal values): @main is host lines,
  the region, one reshape; the body loads five whole blocks and stores one, so the pipeline's proof data name every
  staging buffer after every point, and no host line writes an argument.  The reference's frame is its run.  The ideal
  pass rewrote nothing, so nothing is to be preserved.  At the ideal values the two token tensors agree entry by entry:
  each is `LayerNormDense.tokens` of the same 3840 entries of the patch tensor, since flattening to 12544 rows and viewing
  as 64 x 196 rows keep the row-major order, a lane sum and a host sum of one row are the same sum, the matrix product
  into a zero block and the host product are the same sum of products, and the weight's change of float format is the
  identity.  No property of the inputs is used.
-/
import proofs.«142704_j27805618274639_1_alg».proof.Defs
import proofs.«142704_j27805618274639_1_alg».proof.Proof.Gen.Kernel
import proofs.«142704_j27805618274639_1_alg».proof.Proof.Gen.KernelIdeal
import proofs.«142704_j27805618274639_1_alg».proof.Proof.Gen.ReferenceIdeal
import proofs.«142704_j27805618274639_1_alg».proof.Proof.Gen.Pre_finite_inputs
import proofs.«142704_j27805618274639_1_alg».proof.Proof.Gen.ReferenceIdeal.Run
import proofs.«142704_j27805618274639_1_alg».proof.Proof.KernelRegion
import proofs.«142704_j27805618274639_1_alg».proof.Proof.KernelIdealRegion
import proofs.«142704_j27805618274639_1_alg».proof.Proof.Bridge

noncomputable section

namespace Cert.Proof

open Idealize.ShloMosaic Idealize.SL.Sem

theorem frame_kernel : Cert.frame_Kernel := fun m ρ _ => Cert.Kernel.Region.frame (F := Bits) m ρ

theorem frame_kernel_ideal : Cert.frame_KernelIdeal := fun m ρ _ => Cert.KernelIdeal.Region.frame (F := Ideal) m ρ

/-- The reference has no kernel: its frame is its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, Cert.Proof.Bridge.algebraic⟩

end Cert.Proof

end
